-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x16x512 : Shape := ⟨3, ![4096, 16, 512]⟩
abbrev S512x1536 : Shape := ⟨2, ![512, 1536]⟩
abbrev S512x512 : Shape := ⟨2, ![512, 512]⟩
abbrev S1536 : Shape := ⟨1, ![1536]⟩
abbrev S512 : Shape := ⟨1, ![512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x16x512 : S_.BroadcastsInDim S4096x16x512 (![] : Fin 0 → Fin S4096x16x512.rank)
  reducesTo_S4096x16x512_S_d0_1_2 : S4096x16x512.ReducesTo [0, 1, 2] S_
  bcast_S_S512x1536 : S_.BroadcastsInDim S512x1536 (![] : Fin 0 → Fin S512x1536.rank)
  reducesTo_S512x1536_S_d0_1 : S512x1536.ReducesTo [0, 1] S_
  bcast_S_S512x512 : S_.BroadcastsInDim S512x512 (![] : Fin 0 → Fin S512x512.rank)
  reducesTo_S512x512_S_d0_1 : S512x512.ReducesTo [0, 1] S_
  bcast_S_S1536 : S_.BroadcastsInDim S1536 (![] : Fin 0 → Fin S1536.rank)
  reducesTo_S1536_S_d0 : S1536.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S1536 .f32) (main_arg9 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S1536 .f32 := Host.absf main_arg8
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x1536 .f32) (main_arg5 : FVec F S512x1536 .f32) (main_arg6 : FVec F S512x512 .f32) (main_arg7 : FVec F S512x512 .f32) (main_arg8 : FVec F S1536 .f32) (main_arg9 : FVec F S512 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S512x1536 .f32 := Host.absf main_arg4
  let main_cst_6 : FVec F S_ .f32 := constant S_ .f32 0x7F800000#32
  let main_v20 : FVec F S512x1536 .f32 := broadcastInDim S512x1536 ![] bcast_S_S512x1536 main_cst_6
  let main_v21 : IVec S512x1536 1 := cmpf .olt main_v19 main_v20
  let main_c_7 : IVec S_ 1 := constantI S_ 1 1#1
  let main_v22 : IVec S_ 1 := (fun x v => Host.reduce IntOp.andi x v reducesTo_S512x1536_S_d0_1 h_S_) main_v21 main_c_7
  let main_v23 : IVec S_ 1 := andi main_v18 main_v22
  let main_v24 : FVec F S512x1536 .f32 := Host.absf main_arg5
  let main_cst_8 : FVec F S_ .f32 := constant S_ .f32 0x7F800000#32
  let main_v25 : FVec F S512x1536 .f32 := broadcastInDim S512x1536 ![] bcast_S_S512x1536 main_cst_8
  let main_v26 : IVec S512x1536 1 := cmpf .olt main_v24 main_v25
  let main_c_9 : IVec S_ 1 := constantI S_ 1 1#1
  let main_v27 : IVec S_ 1 := (fun x v => Host.reduce IntOp.andi x v reducesTo_S512x1536_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x512 .f32) (main_arg1 : FVec F S4096x16x512 .f32) (main_arg2 : FVec F S4096x512 .f32) (main_arg3 : FVec F S4096x512 .f32) (main_arg4 : FVec F S512x1536 .f32) (main_arg5 : FVec F S512x1536 .f32) (main_arg6 : FVec F S512x512 .f32) (main_arg7 : FVec F S512x512 .f32) (main_arg8 : FVec F S1536 .f32) (main_arg9 : FVec F S512 .f32) (main_arg10 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x16x512 .f32 := Host.absf main_arg1
  let main_cst_0 : FVec F S_ .f32 := constant S_ .f32 0x7F800000#32
  let main_v5 : FVec F S4096x16x512 .f32 := broadcastInDim S4096x16x512 ![] bcast_S_S4096x16x512 main_cst_0
  let main_v6 : IVec S4096x16x512 1 := cmpf .olt main_v4 main_v5
  let main_c_1 : IVec S_ 1 := constantI S_ 1 1#1
  let main_v7 : IVec S_ 1 := (fun x v => Host.reduce IntOp.andi x v reducesTo_S4096x16x512_S_d0_1_2 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_v13 main_v16
-- ==== Kernel.lean ====
abbrev S4096x512 : Shape := ⟨2, ![4096, 512]⟩
abbrev S4096x16x512 : Shape := ⟨3, ![4096, 16, 512]⟩
abbrev S512x1536 : Shape := ⟨2, ![512, 1536]⟩
abbrev S512x512 : Shape := ⟨2, ![512, 512]⟩
abbrev S1536 : Shape := ⟨1, ![1536]⟩
abbrev S512 : Shape := ⟨1, ![512]⟩
abbrev S4096 : Shape := ⟨1, ![4096]⟩
abbrev S1x1536 : Shape := ⟨2, ![1, 1536]⟩
abbrev S1x512 : Shape := ⟨2, ![1, 512]⟩
abbrev S4096x1 : Shape := ⟨2, ![4096, 1]⟩
abbrev S128x512 : Shape := ⟨2, ![128, 512]⟩
abbrev S128x16x512 : Shape := ⟨3, ![128, 16, 512]⟩
abbrev S128x1 : Shape := ⟨2, ![128, 1]⟩
abbrev S128x1536 : Shape := ⟨2, ![128, 1536]⟩
abbrev S2048x512 : Shape := ⟨2, ![2048, 512]⟩
abbrev S1x1x512 : Shape := ⟨3, ![1, 1, 512]⟩
abbrev S128x1x512 : Shape := ⟨3, ![128, 1, 512]⟩
abbrev S128x16 : Shape := ⟨2, ![128, 16]⟩
abbrev S128x16x1 : Shape := ⟨3, ![128, 16, 1]⟩

abbrev nBuf : Space → Nat
  | .hbm => 19
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x16x512, .f32⟩
  | .hbm, ⟨2, _⟩ => ⟨S4096x512, .f32⟩
  | .hbm, ⟨3, _⟩ => ⟨S4096x512, .f32⟩
  | .hbm, ⟨4, _⟩ => ⟨S512x1536, .f32⟩
  | .hbm, ⟨5, _⟩ => ⟨S512x1536, .f32⟩
  | .hbm, ⟨6, _⟩ => ⟨S512x512, .f32⟩
  | .hbm, ⟨7, _⟩ => ⟨S512x512, .f32⟩
  | .hbm, ⟨8, _⟩ => ⟨S1536, .f32⟩
  | .hbm, ⟨9, _⟩ => ⟨S512, .f32⟩
  | .hbm, ⟨10, _⟩ => ⟨S4096, .i32⟩
  | .hbm, ⟨11, _⟩ => ⟨S1x1536, .f32⟩
  | .hbm, ⟨12, _⟩ => ⟨S1x512, .f32⟩
  | .hbm, ⟨13, _⟩ => ⟨S4096x1, .i32⟩
  | .hbm, ⟨14, _⟩ => ⟨S4096x512, .bf16⟩
  | .hbm, ⟨15, _⟩ => ⟨S512x1536, .bf16⟩
  | .hbm, ⟨16, _⟩ => ⟨S512x512, .bf16⟩
  | .hbm, ⟨17, _⟩ => ⟨S4096x512, .f32⟩
  | .hbm, ⟨18, _⟩ => ⟨S4096x512, .f32⟩
  | .local _ .vmem, ⟨0, _⟩ => ⟨S128x512, .bf16⟩
  | .local _ .vmem, ⟨1, _⟩ => ⟨S128x512, .bf16⟩
  | .local _ .vmem, ⟨2, _⟩ => ⟨S128x16x512, .f32⟩
  | .local _ .vmem, ⟨3, _⟩ => ⟨S128x16x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S512x1536, .bf16⟩
  | .local _ .vmem, ⟨9, _⟩ => ⟨S512x1536, .f32⟩
  | .local _ .vmem, ⟨10, _⟩ => ⟨S512x512, .bf16⟩
  | .local _ .vmem, ⟨11, _⟩ => ⟨S512x512, .f32⟩
  | .local _ .vmem, ⟨12, _⟩ => ⟨S1x1536, .f32⟩
  | .local _ .vmem, ⟨13, _⟩ => ⟨S1x512, .f32⟩
  | .local _ .vmem, ⟨14, _⟩ => ⟨S128x1, .i32⟩
  | .local _ .vmem, ⟨15, _⟩ => ⟨S128x1, .i32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1536_S1x1536 : S1536.ShapeCasts S1x1536
  shapeCasts_S512_S1x512 : S512.ShapeCasts S1x512
  shapeCasts_S4096_S4096x1 : S4096.ShapeCasts S4096x1
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x16x512_S128x16x512_0_0_0 : ∀ a, (![0, 0, 0] : Fin 3 → Nat) a + S128x16x512.size a ≤ S128x16x512.size a
  h_S128x16x512 : 0 < S128x16x512.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S128x1536 : S1x1536.Broadcasts S128x1536
  slices_S128x1536_o0_0_S128x512 : S128x1536.Slices ![0, 0] S128x512
  slices_S128x1536_o0_512_S128x512 : S128x1536.Slices ![0, 512] S128x512
  slices_S128x1536_o0_1024_S128x512 : S128x1536.Slices ![0, 1024] S128x512
  shapeCasts_S128x16x512_S2048x512 : S128x16x512.ShapeCasts S2048x512
  shapeCasts_S2048x512_S128x16x512 : S2048x512.ShapeCasts S128x16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  shapeCasts_S128x512_S128x1x512 : S128x512.ShapeCasts S128x1x512
  broadcasts_S128x1x512_S128x16x512 : S128x1x512.Broadcasts S128x16x512
  broadcasts_S1x1x512_S128x16x512 : S1x1x512.Broadcasts S128x16x512
  iota_S128x16_d1_w32 : S128x16.Iotas .tc 32 [1]
  broadcasts_S128x1_S128x16 : S128x1.Broadcasts S128x16
  shapeCasts_S128x16_S128x16x1 : S128x16.ShapeCasts S128x16x1
  broadcasts_S128x16x1_S128x16x512 : S128x16x1.Broadcasts S128x16x512
  reduces_S128x16x512_S128x512 : S128x16x512.Reduces [1] S128x512
  natLt_1_32 : 1 < 32
  broadcasts_S128x1_S128x512 : S128x1.Broadcasts S128x512
  dot_S128x512_S512x1536_S128x1536_1_0_0_1_n_n_wf : DotDims.WF S128x512 S512x1536 S128x1536 [1] [0] [0] [1] [] []
  dot_S128x512_S512x512_S128x512_1_0_0_1_n_n_wf : DotDims.WF S128x512 S512x512 S128x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .bf16 = 32 ∨ (Rect.block (s := S4096x512) S128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16x512.size a ≤ S4096x16x512.size a
  hwx0_1 : ∀ i : grid0.Coords, EltTy.bits .f32 = 32 ∨ (Rect.block (s := S4096x16x512) S128x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S4096x512.size a
  hwx0_2 : ∀ i : grid0.Coords, EltTy.bits .f32 = 32 ∨ (Rect.block (s := S4096x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S4096x512.size a
  hwx0_3 : ∀ i : grid0.Coords, EltTy.bits .f32 = 32 ∨ (Rect.block (s := S4096x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .bf16 = 32 ∨ (Rect.block (s := S512x1536) S512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .f32 = 32 ∨ (Rect.block (s := S512x1536) S512x1536.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1536.size a ≤ S1x1536.size a
  hwx0_8 : ∀ i : grid0.Coords, EltTy.bits .f32 = 32 ∨ (Rect.block (s := S1x1536) S1x1536.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S4096x1.size a
  hwx0_10 : ∀ i : grid0.Coords, EltTy.bits .i32 = 32 ∨ (Rect.block (s := S4096x1) S128x1.size (cc0_transform_10 i) (hinb0_10 i)).WholeWords (EltTy.packing .i32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S4096x512.size a
  hwx0_11 : ∀ i : grid0.Coords, EltTy.bits .f32 = 32 ∨ (Rect.block (s := S4096x512) S128x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x512.size a ≤ S4096x512.size a
  hwx0_12 : ∀ i : grid0.Coords, EltTy.bits .f32 = 32 ∨ (Rect.block (s := S4096x512) S128x512.size (cc0_transform_12 i) (hinb0_12 i)).WholeWords (EltTy.packing .f32)

variable [Facts₀]

def dot_S128x512_S512x1536_S128x1536_1_0_0_1_n_n : DotDims S128x512 S512x1536 S128x1536 where
  lhsContracting := [1]
  rhsContracting := [0]
  lhsNonContracting := [0]
  rhsNonContracting := [1]
  lhsBatch := []
  rhsBatch := []
  wf := dot_S128x512_S512x1536_S128x1536_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v3) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S128x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S128x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S128x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x16x512 : Shape := ⟨3, ![4096, 16, 512]⟩
abbrev S512x1536 : Shape := ⟨2, ![512, 1536]⟩
abbrev S512x512 : Shape := ⟨2, ![512, 512]⟩
abbrev S1536 : Shape := ⟨1, ![1536]⟩
abbrev S512 : Shape := ⟨1, ![512]⟩
abbrev S4096 : Shape := ⟨1, ![4096]⟩
abbrev S4096x1536 : Shape := ⟨2, ![4096, 1536]⟩
abbrev S1x1536 : Shape := ⟨2, ![1, 1536]⟩
abbrev S_ : Shape := ⟨0, ![]⟩
abbrev S4096x1x512 : Shape := ⟨3, ![4096, 1, 512]⟩
abbrev S1x1x512 : Shape := ⟨3, ![1, 1, 512]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S4096x16x1 : Shape := ⟨3, ![4096, 16, 1]⟩
abbrev S4096x17x512 : Shape := ⟨3, ![4096, 17, 512]⟩

abbrev nBuf : Space → Nat
  | .hbm => 102
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x16x512, .f32⟩
  | .hbm, ⟨2, _⟩ => ⟨S4096x512, .f32⟩
  | .hbm, ⟨3, _⟩ => ⟨S4096x512, .f32⟩
  | .hbm, ⟨4, _⟩ => ⟨S512x1536, .f32⟩
  | .hbm, ⟨5, _⟩ => ⟨S512x1536, .f32⟩
  | .hbm, ⟨6, _⟩ => ⟨S512x512, .f32⟩
  | .hbm, ⟨7, _⟩ => ⟨S512x512, .f32⟩
  | .hbm, ⟨8, _⟩ => ⟨S1536, .f32⟩
  | .hbm, ⟨9, _⟩ => ⟨S512, .f32⟩
  | .hbm, ⟨10, _⟩ => ⟨S4096, .i32⟩
  | .hbm, ⟨11, _⟩ => ⟨S4096x1536, .f32⟩
  | .hbm, ⟨12, _⟩ => ⟨S4096x1536, .f32⟩
  | .hbm, ⟨13, _⟩ => ⟨S4096x1536, .f32⟩
  | .hbm, ⟨14, _⟩ => ⟨S1x1536, .f32⟩
  | .hbm, ⟨15, _⟩ => ⟨S4096x1536, .f32⟩
  | .hbm, ⟨16, _⟩ => ⟨S4096x1536, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x1x512, .f32⟩
  | .hbm, ⟨45, _⟩ => ⟨S4096x16x512, .f32⟩
  | .hbm, ⟨46, _⟩ => ⟨S4096x16x512, .f32⟩
  | .hbm, ⟨47, _⟩ => ⟨S4096x16x512, .f32⟩
  | .hbm, ⟨48, _⟩ => ⟨S1x1x512, .f32⟩
  | .hbm, ⟨49, _⟩ => ⟨S4096x16x512, .f32⟩
  | .hbm, ⟨50, _⟩ => ⟨S4096x16x512, .f32⟩
  | .hbm, ⟨51, _⟩ => ⟨S4096x16x512, .f32⟩
  | .hbm, ⟨52, _⟩ => ⟨S4096x16x512, .f32⟩
  | .hbm, ⟨53, _⟩ => ⟨S_, .f32⟩
  | .hbm, ⟨54, _⟩ => ⟨S4096x16x512, .f32⟩
  | .hbm, ⟨55, _⟩ => ⟨S4096x16x512, .f32⟩
  | .hbm, ⟨56, _⟩ => ⟨S_, .f32⟩
  | .hbm, ⟨57, _⟩ => ⟨S4096x16x512, .f32⟩
  | .hbm, ⟨58, _⟩ => ⟨S4096x16x512, .f32⟩
  | .hbm, ⟨59, _⟩ => ⟨S16, .i32⟩
  | .hbm, ⟨60, _⟩ => ⟨S1x16, .i32⟩
  | .hbm, ⟨61, _⟩ => ⟨S4096x1, .i32⟩
  | .hbm, ⟨62, _⟩ => ⟨S4096x16, .i32⟩
  | .hbm, ⟨63, _⟩ => ⟨S4096x16, .i32⟩
  | .hbm, ⟨64, _⟩ => ⟨S4096x16, .i1⟩
  | .hbm, ⟨65, _⟩ => ⟨S_, .f32⟩
  | .hbm, ⟨66, _⟩ => ⟨S_, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x16x1, .f32⟩
  | .hbm, ⟨71, _⟩ => ⟨S4096x16x1, .f32⟩
  | .hbm, ⟨72, _⟩ => ⟨S4096x16x512, .f32⟩
  | .hbm, ⟨73, _⟩ => ⟨S4096x16x512, .f32⟩
  | .hbm, ⟨74, _⟩ => ⟨S4096x1x512, .f32⟩
  | .hbm, ⟨75, _⟩ => ⟨S4096x17x512, .f32⟩
  | .hbm, ⟨76, _⟩ => ⟨S4096x17x512, .f32⟩
  | .hbm, ⟨77, _⟩ => ⟨S_, .f32⟩
  | .hbm, ⟨78, _⟩ => ⟨S4096x512, .f32⟩
  | .hbm, ⟨79, _⟩ => ⟨S4096x1x512, .f32⟩
  | .hbm, ⟨80, _⟩ => ⟨S4096x17x512, .f32⟩
  | .hbm, ⟨81, _⟩ => ⟨S4096x17x512, .f32⟩
  | .hbm, ⟨82, _⟩ => ⟨S4096x1x512, .f32⟩
  | .hbm, ⟨83, _⟩ => ⟨S4096x17x512, .f32⟩
  | .hbm, ⟨84, _⟩ => ⟨S4096x17x512, .f32⟩
  | .hbm, ⟨85, _⟩ => ⟨S_, .f32⟩
  | .hbm, ⟨86, _⟩ => ⟨S4096x512, .f32⟩
  | .hbm, ⟨87, _⟩ => ⟨S_, .i32⟩
  | .hbm, ⟨88, _⟩ => ⟨S4096, .i32⟩
  | .hbm, ⟨89, _⟩ => ⟨S4096, .i1⟩
  | .hbm, ⟨90, _⟩ => ⟨S4096, .f32⟩
  | .hbm, ⟨91, _⟩ => ⟨S4096x1, .f32⟩
  | .hbm, ⟨92, _⟩ => ⟨S4096x512, .f32⟩
  | .hbm, ⟨93, _⟩ => ⟨S4096x512, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S4096x512, .f32⟩
  | .hbm, ⟨98, _⟩ => ⟨S4096x512, .f32⟩
  | .hbm, ⟨99, _⟩ => ⟨S4096x512, .f32⟩
  | .hbm, ⟨100, _⟩ => ⟨S4096x512, .f32⟩
  | .hbm, ⟨101, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_cst_7 : Ref sig .tc := ⟨.hbm, 66, rfl⟩
abbrev main_call0_v0 : Ref sig .tc := ⟨.hbm, 67, rfl⟩
abbrev main_call0_v1 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_c : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_10 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  bcast_S1536_S1x1536_1 : S1536.BroadcastsInDim S1x1536 (![1] : Fin 1 → Fin S1x1536.rank)
  bcast_S1x1536_S4096x1536_0_1 : S1x1536.BroadcastsInDim S4096x1536 (![0, 1] : Fin 2 → Fin S4096x1536.rank)
  slices_S4096x1536_S4096x512_0_0 : S4096x1536.Slices ![0, 0] S4096x512
  slices_S4096x1536_S4096x512_0_512 : S4096x1536.Slices ![0, 512] S4096x512
  slices_S4096x1536_S4096x512_0_1024 : S4096x1536.Slices ![0, 1024] S4096x512
  bcast_S_S4096x512 : S_.BroadcastsInDim S4096x512 (![] : Fin 0 → Fin S4096x512.rank)
  bcast_S4096x512_S4096x1x512_0_2 : S4096x512.BroadcastsInDim S4096x1x512 (![0, 2] : Fin 2 → Fin S4096x1x512.rank)
  bcast_S4096x1x512_S4096x16x512_0_1_2 : S4096x1x512.BroadcastsInDim S4096x16x512 (![0, 1, 2] : Fin 3 → Fin S4096x16x512.rank)
  bcast_S512_S1x1x512_2 : S512.BroadcastsInDim S1x1x512 (![2] : Fin 1 → Fin S1x1x512.rank)
  bcast_S1x1x512_S4096x16x512_0_1_2 : S1x1x512.BroadcastsInDim S4096x16x512 (![0, 1, 2] : Fin 3 → Fin S4096x16x512.rank)
  bcast_S_S4096x16x512 : S_.BroadcastsInDim S4096x16x512 (![] : Fin 0 → Fin S4096x16x512.rank)
  bcast_S16_S1x16_1 : S16.BroadcastsInDim S1x16 (![1] : Fin 1 → Fin S1x16.rank)
  bcast_S4096_S4096x1_0 : S4096.BroadcastsInDim S4096x1 (![0] : Fin 1 → Fin S4096x1.rank)
  bcast_S1x16_S4096x16_0_1 : S1x16.BroadcastsInDim S4096x16 (![0, 1] : Fin 2 → Fin S4096x16.rank)
  bcast_S4096x1_S4096x16_0_1 : S4096x1.BroadcastsInDim S4096x16 (![0, 1] : Fin 2 → Fin S4096x16.rank)
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  bcast_S4096x16x1_S4096x16x512_0_1_2 : S4096x16x1.BroadcastsInDim S4096x16x512 (![0, 1, 2] : Fin 3 → Fin S4096x16x512.rank)
  concatenates_S4096x1x512_S4096x16x512_S4096x17x512_d1 : Shape.Concatenates [S4096x1x512, S4096x16x512] S4096x17x512 1
  reducesTo_S4096x17x512_S4096x512_d1 : S4096x17x512.ReducesTo [1] S4096x512
  h_S_ : 0 < S_.numel
  bcast_S4096x1x512_S4096x17x512_0_1_2 : S4096x1x512.BroadcastsInDim S4096x17x512 (![0, 1, 2] : Fin 3 → Fin S4096x17x512.rank)
  bcast_S_S4096 : S_.BroadcastsInDim S4096 (![] : Fin 0 → Fin S4096.rank)
  bcast_S4096x1_S4096x512_0_1 : S4096x1.BroadcastsInDim S4096x512 (![0, 1] : Fin 2 → Fin S4096x512.rank)
  bcast_S_S4096x1 : S_.BroadcastsInDim S4096x1 (![] : Fin 0 → Fin S4096x1.rank)
  dot_S4096x512_S512x1536_S4096x1536_1_0_0_1_n_n_wf : DotDims.WF S4096x512 S512x1536 S4096x1536 [1] [0] [0] [1] [] []
  dot_S4096x512_S512x512_S4096x512_1_0_0_1_n_n_wf : DotDims.WF S4096x512 S512x512 S4096x512 [1] [0] [0] [1] [] []
  dot_S4096x16x512_S512x512_S4096x16x512_2_0_01_1_n_n_wf : DotDims.WF S4096x16x512 S512x512 S4096x16x512 [2] [0] [0, 1] [1] [] []

variable [Facts₀]

def dot_S4096x512_S512x1536_S4096x1536_1_0_0_1_n_n : DotDims S4096x512 S512x1536 S4096x1536 where
  lhsContracting := [1]
  rhsContracting := [0]
  lhsNonContracting := [0]
  rhsNonContracting := [1]
  lhsBatch := []
  rhsBatch := []
  wf := dot_S4096x512_S512x1536_S4096x1536_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x16x512_S512x512_S4096x16x512_2_0_01_1_n_n : DotDims S4096x16x512 S512x512 S4096x16x512 where
  lhsContracting := [2]
  rhsContracting := [0]
  lhsNonContracting := [0, 1]
  rhsNonContracting := [1]
  lhsBatch := []
  rhsBatch := []
  wf := dot_S4096x16x512_S512x512_S4096x16x512_2_0_01_1_n_n_wf

class Facts : Prop extends Facts₀ where

variable [Facts]
-- ==== Proof.KernLayout.lean ====
/-
  The kernel body's layout and contraction steps, read at an index (at the exact-arithmetic instance).

  Three matrix products into a zero accumulator, each a plain sum over the 512 contracted positions; and the two
  reshapes around the third product: the block of skip rows [128, 16, 512] viewed as 2048 rows of 512 — row
  `16 p + j` is skip row `j` of batch row `p` — and back.
-/
import proofs.«420897_j40261023432819_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.Lstm.Kern

open Cert.KernelIdeal Idealize.ShloMosaic Idealize.ShloMosaic.ValueIdx

/-! ### The product 128x512 · 512x1536 -/

theorem lhs_mmGate_0 (i : S128x1536.Idx) (q : dot_S128x512_S512x1536_S128x1536_1_0_0_1_n_n.contr.Idx) :
    (dot_S128x512_S512x1536_S128x1536_1_0_0_1_n_n.lhsIdx i q 0).val = (i 0).val := by
  unfold DotDims.lhsIdx
  rw [dif_neg (show ¬(0 : Fin S128x512.rank) ∈ dot_S128x512_S512x1536_S128x1536_1_0_0_1_n_n.lhsBatch by decide), dif_pos (show (0 : Fin S128x512.rank) ∈ dot_S128x512_S512x1536_S128x1536_1_0_0_1_n_n.lhsNonContracting by decide)]
  rfl
theorem lhs_mmGate_1 (i : S128x1536.Idx) (q : dot_S128x512_S512x1536_S128x1536_1_0_0_1_n_n.contr.Idx) :
    (dot_S128x512_S512x1536_S128x1536_1_0_0_1_n_n.lhsIdx i q 1).val = (q ⟨0, by decide⟩).val :=
  dot_S128x512_S512x1536_S128x1536_1_0_0_1_n_n.lhsIdx_val_of_single rfl i q
theorem rhs_mmGate_0 (i : S128x1536.Idx) (q : dot_S128x512_S512x1536_S128x1536_1_0_0_1_n_n.contr.Idx) :
    (dot_S128x512_S512x1536_S128x1536_1_0_0_1_n_n.rhsIdx i q 0).val = (q ⟨0, by decide⟩).val :=
  dot_S128x512_S512x1536_S128x1536_1_0_0_1_n_n.rhsIdx_val_of_single rfl i q
theorem rhs_mmGate_1 (i : S128x1536.Idx) (q : dot_S128x512_S512x1536_S128x1536_1_0_0_1_n_n.contr.Idx) :
    (dot_S128x512_S512x1536_S128x1536_1_0_0_1_n_n.rhsIdx i q 1).val = (i 1).val := by
  unfold DotDims.rhsIdx
  rw [dif_neg (show ¬(1 : Fin S512x1536.rank) ∈ dot_S128x512_S512x1536_S128x1536_1_0_0_1_n_n.rhsBatch by decide), dif_pos (show (1 : Fin S512x1536.rank) ∈ dot_S128x512_S512x1536_S128x1536_1_0_0_1_n_n.rhsNonContracting by decide)]
  rfl

/-- Entry `(p, c)` of the product into a zero accumulator is the sum over the 512 contracted positions of row `p` of the
    left factor times column `c` of the right. -/
theorem mmGate_apply {φ₁ φ₂ : FTy} (prec : Option ContractPrecision) (l : FVec Ideal S128x512 φ₁) (r : FVec Ideal S512x1536 φ₂)
    (p : Fin 128) (c : Fin 1536) :
    matmul dot_S128x512_S512x1536_S128x1536_1_0_0_1_n_n prec l r (constant (F := Ideal) S128x1536 .f32 0x00000000#32) (ix2 p c)
      = ∑ k : Fin 512, l (ix2 p k) * r (ix2 k c) := by
  simp only [matmul]
  rw [Ideal.matmul_constant_zero_apply, ← Equiv.sum_comp (ValueIdx.contrEquiv1 dot_S128x512_S512x1536_S128x1536_1_0_0_1_n_n 512 rfl rfl).symm]
  refine Finset.sum_congr rfl fun k _ => ?_
  have hk := ValueIdx.contrEquiv1_symm_val dot_S128x512_S512x1536_S128x1536_1_0_0_1_n_n 512 rfl rfl k
  have el : dot_S128x512_S512x1536_S128x1536_1_0_0_1_n_n.lhsIdx (ix2 p c) ((ValueIdx.contrEquiv1 dot_S128x512_S512x1536_S128x1536_1_0_0_1_n_n 512 rfl rfl).symm k) = ix2 p k := funext fun a => Fin.ext (by
    match a with
    | ⟨0, _⟩ => exact lhs_mmGate_0 _ _
    | ⟨1, _⟩ => exact (lhs_mmGate_1 _ _).trans hk)
  have er : dot_S128x512_S512x1536_S128x1536_1_0_0_1_n_n.rhsIdx (ix2 p c) ((ValueIdx.contrEquiv1 dot_S128x512_S512x1536_S128x1536_1_0_0_1_n_n 512 rfl rfl).symm k) = ix2 k c := funext fun a => Fin.ext (by
    match a with
    | ⟨0, _⟩ => exact (rhs_mmGate_0 _ _).trans hk
    | ⟨1, _⟩ => exact rhs_mmGate_1 _ _)
  rw [el, er]

/-! ### The product 128x512 · 512x512 -/

theorem lhs_mmAttn_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem lhs_mmAttn_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
theorem rhs_mmAttn_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
theorem rhs_mmAttn_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

/-- Entry `(p, c)` of the product into a zero accumulator is the sum over the 512 contracted positions of row `p` of the
    left factor times column `c` of the right. -/
theorem mmAttn_apply {φ₁ φ₂ : FTy} (prec : Option ContractPrecision) (l : FVec Ideal S128x512 φ₁) (r : FVec Ideal S512x512 φ₂)
    (p : Fin 128) (c : Fin 512) :
    matmul dot_S128x512_S512x512_S128x512_1_0_0_1_n_n prec l r (constant (F := Ideal) S128x512 .f32 0x00000000#32) (ix2 p c)
      = ∑ k : Fin 512, l (ix2 p k) * r (ix2 k c) := by
  simp only [matmul]
  rw [Ideal.matmul_constant_zero_apply, ← Equiv.sum_comp (ValueIdx.contrEquiv1 dot_S128x512_S512x512_S128x512_1_0_0_1_n_n 512 rfl rfl).symm]
  refine Finset.sum_congr rfl fun k _ => ?_
  have hk := ValueIdx.contrEquiv1_symm_val dot_S128x512_S512x512_S128x512_1_0_0_1_n_n 512 rfl rfl k
  have el : dot_S128x512_S512x512_S128x512_1_0_0_1_n_n.lhsIdx (ix2 p c) ((ValueIdx.contrEquiv1 dot_S128x512_S512x512_S128x512_1_0_0_1_n_n 512 rfl rfl).symm k) = ix2 p k := funext fun a => Fin.ext (by
    match a with
    | ⟨0, _⟩ => exact lhs_mmAttn_0 _ _
    | ⟨1, _⟩ => exact (lhs_mmAttn_1 _ _).trans hk)
  have er : dot_S128x512_S512x512_S128x512_1_0_0_1_n_n.rhsIdx (ix2 p c) ((ValueIdx.contrEquiv1 dot_S128x512_S512x512_S128x512_1_0_0_1_n_n 512 rfl rfl).symm k) = ix2 k c := funext fun a => Fin.ext (by
    match a with
    | ⟨0, _⟩ => exact (rhs_mmAttn_0 _ _).trans hk
    | ⟨1, _⟩ => exact rhs_mmAttn_1 _ _)
  rw [el, er]

/-! ### The product 2048x512 · 512x512 -/

theorem lhs_mmSkip_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_mmSkip_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_mmSkip_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_mmSkip_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Entry `(p, c)` of the product into a zero accumulator is the sum over the 512 contracted positions of row `p` of the
    left factor times column `c` of the right. -/
theorem mmSkip_apply {φ₁ φ₂ : FTy} (prec : Option ContractPrecision) (l : FVec Ideal S2048x512 φ₁) (r : FVec Ideal S512x512 φ₂)
    (p : Fin 2048) (c : Fin 512) :
    matmul dot_S2048x512_S512x512_S2048x512_1_0_0_1_n_n prec l r (constant (F := Ideal) S2048x512 .f32 0x00000000#32) (ix2 p c)
      = ∑ k : Fin 512, l (ix2 p k) * r (ix2 k c) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p c) ((ValueIdx.contrEquiv1 dot_S2048x512_S512x512_S2048x512_1_0_0_1_n_n 512 rfl rfl).symm k) = ix2 p k := funext fun a => Fin.ext (by
    match a with
    | ⟨0, _⟩ => exact lhs_mmSkip_0 _ _
    | ⟨1, _⟩ => exact (lhs_mmSkip_1 _ _).trans hk)
  have er : dot_S2048x512_S512x512_S2048x512_1_0_0_1_n_n.rhsIdx (ix2 p c) ((ValueIdx.contrEquiv1 dot_S2048x512_S512x512_S2048x512_1_0_0_1_n_n 512 rfl rfl).symm k) = ix2 k c := funext fun a => Fin.ext (by
    match a with
    | ⟨0, _⟩ => exact (rhs_mmSkip_0 _ _).trans hk
    | ⟨1, _⟩ => exact rhs_mmSkip_1 _ _)
  rw [el, er]

/-! ### The two reshapes -/

/-- The skip block viewed as 2048 rows: row `16 p + j` is skip row `j` of batch row `p`. -/
theorem flatten_apply {α : Type} (v : S128x16x512.Idx → α) (h : S128x16x512.ShapeCasts S2048x512) (p : Fin 128) (j : Fin 16) (k : Fin 512) :
    shapeCast S2048x512 v h (ix2 ⟨16 * p.val + j.val, by omega⟩ k) = v (ix3 p j k) := by
  refine shapeCast_apply v h _ (ix3 p j k) ?_
  rw [Shape.rowMajor_val_three, Shape.rowMajor_val_two]
  show (p.val * 16 + j.val) * 512 + k.val = (16 * p.val + j.val) * 512 + k.val
  omega

/-- And back: entry `(p, j, h)` of the 2048 rows viewed as [128, 16, 512] is row `16 p + j`, column `h`. -/
theorem unflatten_apply {α : Type} (v : S2048x512.Idx → α) (h' : S2048x512.ShapeCasts S128x16x512) (p : Fin 128) (j : Fin 16) (h : Fin 512) :
    shapeCast S128x16x512 v h' (ix3 p j h) = v (ix2 ⟨16 * p.val + j.val, by omega⟩ h) := by
  refine shapeCast_apply v h' _ (ix2 ⟨16 * p.val + j.val, by omega⟩ h) ?_
  rw [Shape.rowMajor_val_three, Shape.rowMajor_val_two]
  show (16 * p.val + j.val) * 512 + h.val = (p.val * 16 + j.val) * 512 + h.val
  omega

/-! ### Broadcasts through unit axes, the lane sum over the sixteen skip rows, the iota column -/

section Bcast
variable {α : Type}

/-- A [128, 512] value given a unit middle axis and spread over the 16 skip rows reads its own `(p, q)`. -/
theorem spread_rows (v : S128x512.Idx → α) (h1 : S128x512.ShapeCasts S128x1x512) (h2 : S128x1x512.Broadcasts S128x16x512)
    (p : Fin 128) (j : Fin 16) (q : Fin 512) :
    broadcastTo S128x16x512 (shapeCast S128x1x512 v h1) h2 (ix3 p j q) = v (ix2 p q) := by
  rw [broadcastTo_apply _ h2 (ix3 p j q) (ix3 p 0 q) (fun a => by match a with | ⟨0, _⟩ => rfl | ⟨1, _⟩ => rfl | ⟨2, _⟩ => rfl)]
  refine shapeCast_apply v h1 _ (ix2 p q) ?_
  rw [Shape.rowMajor_val_three, Shape.rowMajor_val_two]
  show p.val * 512 + q.val = (p.val * 1 + 0) * 512 + q.val
  omega

/-- A [1, 512] row given two unit leading axes and spread over all rows and skip rows reads its column `q`. -/
theorem spread_bias3 (v : S1x512.Idx → α) (h0 : S1x512.ShapeCasts S1x512) (h1 : S1x512.ShapeCasts S1x1x512)
    (h2 : S1x1x512.Broadcasts S128x16x512) (p : Fin 128) (j : Fin 16) (q : Fin 512) :
    broadcastTo S128x16x512 (shapeCast S1x1x512 (shapeCast S1x512 v h0) h1) h2 (ix3 p j q) = v (ix2 0 q) := by
  rw [shapeCast_self v h0]
  rw [broadcastTo_apply _ h2 (ix3 p j q) (ix3 0 0 q) (fun a => by match a with | ⟨0, _⟩ => rfl | ⟨1, _⟩ => rfl | ⟨2, _⟩ => rfl)]
  refine shapeCast_apply v h1 _ (ix2 0 q) ?_
  rw [Shape.rowMajor_val_three, Shape.rowMajor_val_two]
  show 0 * 512 + q.val = (0 * 1 + 0) * 512 + q.val
  omega

/-- A [128, 16] value given a unit last axis and spread over the 512 columns reads its own `(p, j)`. -/
theorem spread_cols (v : S128x16.Idx → α) (h1 : S128x16.ShapeCasts S128x16x1) (h2 : S128x16x1.Broadcasts S128x16x512)
    (p : Fin 128) (j : Fin 16) (q : Fin 512) :
    broadcastTo S128x16x512 (shapeCast S128x16x1 v h1) h2 (ix3 p j q) = v (ix2 p j) := by
  rw [broadcastTo_apply _ h2 (ix3 p j q) (ix3 p j 0) (fun a => by match a with | ⟨0, _⟩ => rfl | ⟨1, _⟩ => rfl | ⟨2, _⟩ => rfl)]
  refine shapeCast_apply v h1 _ (ix2 p j) ?_
  rw [Shape.rowMajor_val_three, Shape.rowMajor_val_two]
  show p.val * 16 + j.val = (p.val * 16 + j.val) * 1 + 0
  omega

/-- A [128, 1] column spread over 16 columns reads its row's one entry. -/
theorem spread_col16 (v : S128x1.Idx → α) (h : S128x1.Broadcasts S128x16) (p : Fin 128) (j : Fin 16) :
    broadcastTo S128x16 v h (ix2 p j) = v (ix2 p 0) :=
  broadcastTo_apply v h (ix2 p j) (ix2 p 0) (fun a => by match a with | ⟨0, _⟩ => rfl | ⟨1, _⟩ => rfl)

/-- A [128, 1] column spread over 512 columns reads its row's one entry. -/
theorem spread_col512 (v : S128x1.Idx → α) (h : S128x1.Broadcasts S128x512) (p : Fin 128) (q : Fin 512) :
    broadcastTo S128x512 v h (ix2 p q) = v (ix2 p 0) :=
  broadcastTo_apply v h (ix2 p q) (ix2 p 0) (fun a => by match a with | ⟨0, _⟩ => rfl | ⟨1, _⟩ => rfl)

/-- A [1, 1536] row spread over the 128 rows reads its column. -/
theorem spread_bias2 (v : S1x1536.Idx → α) (h : S1x1536.Broadcasts S128x1536) (p : Fin 128) (c : Fin 1536) :
    broadcastTo S128x1536 v h (ix2 p c) = v (ix2 0 c) :=
  broadcastTo_apply v h (ix2 p c) (ix2 0 c) (fun a => by match a with | ⟨0, _⟩ => rfl | ⟨1, _⟩ => rfl)

end Bcast

/-- The sum over the middle axis of a [128, 16, 512] value, at `(p, q)`, is the sum over the sixteen skip rows. -/
theorem lane_sum (src : FVec Ideal S128x16x512 .f32) (h : S128x16x512.Reduces [1] S128x512) (hφ : FKind.Formats .f32)
    (hacc : (0x00000000#32 : BitVec 32) = 0x00000000#32) (p : Fin 128) (q : Fin 512) :
    multiReduction .add [1] S128x512 src 0x00000000#32 h hφ hacc (ix2 p q) = ∑ j : Fin 16, src (ix3 p j q) := by
  refine (Ideal.multiReduction_add_single src 0x00000000#32 h hφ hacc (ix2 p q)).trans ?_
  refine Finset.sum_congr rfl fun j _ => ?_
  exact congrArg src (funext fun a => Fin.ext (by match a with | ⟨0, _⟩ => rfl | ⟨1, _⟩ => rfl | ⟨2, _⟩ => rfl))

/-- The iota along the second axis of a [128, 16] vector reads the skip row's number. -/
theorem iota_col (h : S128x16.Iotas .tc 32 [1]) (p : Fin 128) (j : Fin 16) :
    iota .tc S128x16 32 [1] h (ix2 p j) = BitVec.ofNat 32 j.val :=
  iota_single_apply .tc S128x16 32 1 h (ix2 p j)

end Cert.Lstm.Kern

end
-- ==== Proof.LibSoftmaxMerge.lean ====
/-
  A weighted average taken two ways, on the extended reals.

  Given weights `e₀, e₁ … eₙ` that are positive reals and values `m₀, m₁ … mₙ` that are reals, the average
  `Σⱼ mⱼ · (eⱼ / S)` with `S = Σⱼ eⱼ` (normalise every weight first, then sum) equals `(Σⱼ mⱼ · eⱼ) / S`
  (sum first, divide once). On the extended reals moving a division across a sum needs every term finite and the
  divisor a nonzero real; here that comes from where the terms come from: an exponential of a real is a positive
  real, and the logistic function and the hyperbolic tangent send EVERY extended real to a real.
-/
import Idealize.ShloMosaic.PureOps.Ideal

noncomputable section

namespace Idealize.ShloMosaic.Ideal

open Idealize.ShloMosaic

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of any extended real is a real: `0` at `-∞`, `1` at `+∞`, `1 / (1 + e⁻ʳ)` at a real `r`. -/
theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩

/-- The hyperbolic tangent of any extended real is a real: `-1` at `-∞`, `1` at `+∞`. -/
theorem tanh_real (x : EReal) : ∃ r : ℝ, Ideal.tanh x = (r : EReal) := by
  induction x using EReal.rec with
  | bot => exact ⟨-1, by simp⟩
  | coe r => exact ⟨_, Ideal.tanh_coe r⟩
  | top => exact ⟨1, by simp⟩

/-- The exponential of a real is a positive real. -/
theorem exp_real_pos (r : ℝ) : ∃ e : ℝ, 0 < e ∧ Ideal.exp (r : EReal) = (e : EReal) :=
  ⟨Real.exp r, Real.exp_pos r, Ideal.exp_coe r⟩

/-- The exponential of a logistic value is a positive real, whatever the argument. -/
theorem exp_logistic_real_pos (x : EReal) : ∃ e : ℝ, 0 < e ∧ Ideal.exp (Ideal.logistic x) = (e : EReal) := by
  obtain ⟨r, hr⟩ := logistic_real x
  rw [hr]; exact exp_real_pos r

/-- The exponential of a logistic value less a real is a positive real, whatever the logistic's argument. -/
theorem exp_logistic_sub_real_pos (x : EReal) (d : ℝ) :
    ∃ e : ℝ, 0 < e ∧ Ideal.exp (Ideal.logistic x - (d : EReal)) = (e : EReal) := by
  obtain ⟨r, hr⟩ := logistic_real x
  rw [hr, ← EReal.coe_sub]; exact exp_real_pos (r - d)

/-- THE LAW. Values `m₀, ms` real and weights `e₀, es` positive reals: normalising each weight by the total and then
    averaging is averaging the unnormalised products and dividing by the total once. Both sides are written with the
    zero the sums start from, as a reduction with a zero initial value reads. -/
theorem weighted_average_eq {n : ℕ} (m0 e0 : EReal) (ms es : Fin n → EReal)
    (hm0 : ∃ r : ℝ, m0 = (r : EReal)) (he0 : ∃ r : ℝ, 0 < r ∧ e0 = (r : EReal))
    (hms : ∀ x, ∃ r : ℝ, ms x = (r : EReal)) (hes : ∀ x, ∃ r : ℝ, 0 < r ∧ es x = (r : EReal)) :
    (0 : EReal) + (m0 * Ideal.div e0 (0 + (e0 + ∑ x, es x)) + ∑ x, ms x * Ideal.div (es x) (0 + (e0 + ∑ x, es x)))
      = Ideal.div (m0 * e0 + (0 + ∑ x, ms x * es x)) (e0 + (0 + ∑ x, es x)) := by
  obtain ⟨a0, rfl⟩ := hm0
  obtain ⟨b0, hb0, rfl⟩ := he0
  choose a ha using hms
  choose b hb using hes
  have hms' : ms = fun x => ((a x : ℝ) : EReal) := funext ha
  have hes' : es = fun x => ((b x : ℝ) : EReal) := funext fun x => (hb x).2
  subst hms' hes'
  set S : ℝ := b0 + ∑ x, b x with hS
  have hSpos : 0 < S := add_pos_of_pos_of_nonneg hb0 (Finset.sum_nonneg fun x _ => (hb x).1.le)
  have hSne : S ≠ 0 := hSpos.ne'
  have eS : ((b0 : ℝ) : EReal) + ∑ x, ((b x : ℝ) : EReal) = (S : EReal) := by
    rw [← coe_finset_sum, ← EReal.coe_add]
  simp only [zero_add]
  rw [eS]
  simp only [Ideal.div_coe hSne, ← EReal.coe_mul, ← coe_finset_sum, ← EReal.coe_add]
  congr 1
  simp only [add_mul, Finset.sum_mul, mul_assoc]

end Idealize.ShloMosaic.Ideal

end
-- ==== Proof.Spec.lean ====
/-
  The cell, one batch row at a time, on the extended reals.

  A row's data: the input row `x` (512 entries), the row's sixteen skip rows `s j`, the previous hidden row `hp`
  and cell row `cp`, and the row's count `n` of valid skip rows; shared by all rows: the gate weights `wih`, `whh`
  (512 × 1536), the attention weights `awi`, `awh` (512 × 512) and the two biases.

    gates   = x · wih + hp · whh + bias,   cut in three:  i = σ(gates₁),  o = σ(gates₂),  g = tanh(gates₃)
    basic   = (1 − i) · cp + i · g
    αⱼ      = σ(x · awi + s j · awh + abias) − (0 if j < n, else 10²⁰)            (one per skip row j)
    merged  = (g · eⁱ + Σⱼ s j · e^{αⱼ}) / (eⁱ + Σⱼ e^{αⱼ})
    c₁      = merged · [n ≠ 0] + basic · (1 − [n ≠ 0]),      h₁ = o · tanh(c₁)

  `merged` is a weighted average of the seventeen values `g, s 0 … s 15` with weights `eⁱ, e^{α₀} … e^{α₁₅}`. The same
  average can be taken by first normalising the seventeen weights by their total and then summing value × weight
  (`mergedNormalised`); the two agree when the skip rows are real, since `g` is a hyperbolic tangent and every weight
  the exponential of a logistic value less a real (`merged_eq`).
-/
import Idealize.ShloMosaic.PureOps.Ideal
import Idealize.ShloMosaic.PureOps.Ideal.Laws
import Idealize.ShloMosaic.Lib.ValueIdx
import proofs.«420897_j40261023432819_3_alg».proof.Proof.LibSoftmaxMerge

noncomputable section

namespace Cert.Lstm

open Idealize.ShloMosaic

/-- The three float constants of the cell, by their words: one, zero, and the mask's 10²⁰. -/
abbrev one : EReal := Ideal.ofBits .f32 0x3F800000#32
abbrev zero : EReal := Ideal.ofBits .f32 0x00000000#32
abbrev big : EReal := Ideal.ofBits .f32 0x60AD78EC#32

/-- The word `0x3F800000` is the number one. -/
theorem one_eq : one = 1 := by
  simp [one, Ideal.ofBits, Ideal.ieee]
  rw [← EReal.coe_mul, ← EReal.coe_one]
  congr 1
  norm_num

section Row

variable (x : Fin 512 → EReal) (s : Fin 16 → Fin 512 → EReal) (hp cp : Fin 512 → EReal)
  (wih whh : Fin 512 → Fin 1536 → EReal) (awi awh : Fin 512 → Fin 512 → EReal)
  (bias : Fin 1536 → EReal) (abias : Fin 512 → EReal) (n : BitVec 32)

/-- Column `c` of the row's 1536 gate pre-activations. -/
def gate (c : Fin 1536) : EReal := ((∑ k : Fin 512, x k * wih k c) + (∑ k : Fin 512, hp k * whh k c)) + bias c

/-- The input gate, the output gate and the candidate: the three thirds of the gate columns. -/
def iGate (h : Fin 512) : EReal := Ideal.logistic (gate x hp wih whh bias ⟨h.val, by omega⟩)
def oGate (h : Fin 512) : EReal := Ideal.logistic (gate x hp wih whh bias ⟨h.val + 512, by omega⟩)
def gCand (h : Fin 512) : EReal := Ideal.tanh (gate x hp wih whh bias ⟨h.val + 1024, by omega⟩)

/-- The plain cell update, used where the row has no skip rows. -/
def basic (h : Fin 512) : EReal :=
  (one - iGate x hp wih whh bias h) * cp h + iGate x hp wih whh bias h * gCand x hp wih whh bias h

/-- What the mask takes off skip row `j`'s score: nothing while `j` is below the count, 10²⁰ from the count on. -/
def maskOff (j : Fin 16) : EReal := Scalar.select (IntOp.cmpi .slt (BitVec.ofNat 32 j.val) n) zero big

/-- Skip row `j`'s masked score at column `h`. -/
def alpha (j : Fin 16) (h : Fin 512) : EReal :=
  Ideal.logistic (((∑ k : Fin 512, x k * awi k h) + (∑ k : Fin 512, s j k * awh k h)) + abias h) - maskOff n j

/-- The seventeen weights' first and the sixteen others. -/
def w0 (h : Fin 512) : EReal := Ideal.exp (iGate x hp wih whh bias h)
def wj (j : Fin 16) (h : Fin 512) : EReal := Ideal.exp (alpha x s awi awh abias n j h)

/-- The weighted average, summed first and divided once. -/
def merged (h : Fin 512) : EReal :=
  Ideal.div (gCand x hp wih whh bias h * w0 x hp wih whh bias h + ∑ j : Fin 16, s j h * wj x s awi awh abias n j h)
    (w0 x hp wih whh bias h + ∑ j : Fin 16, wj x s awi awh abias n j h)

/-- The same average with every weight normalised by the total first. -/
def mergedNormalised (h : Fin 512) : EReal :=
  gCand x hp wih whh bias h * Ideal.div (w0 x hp wih whh bias h) (w0 x hp wih whh bias h + ∑ j : Fin 16, wj x s awi awh abias n j h)
    + ∑ j : Fin 16, s j h * Ideal.div (wj x s awi awh abias n j h) (w0 x hp wih whh bias h + ∑ j : Fin 16, wj x s awi awh abias n j h)

/-- The indicator of a nonzero count, as a float. -/
def hasSkips : EReal := FloatOps.sitofp (F := Ideal) .f32 ((IntOp.cmpi .ne n 0#32).setWidth 32)

/-- The new cell row and the new hidden row. -/
def c1 (h : Fin 512) : EReal :=
  merged x s hp wih whh awi awh bias abias n h * hasSkips n + basic x hp cp wih whh bias h * (one - hasSkips n)
def h1 (h : Fin 512) : EReal := oGate x hp wih whh bias h * Ideal.tanh (c1 x s hp cp wih whh awi awh bias abias n h)

/-- The mask takes off a real: zero or 10²⁰. -/
theorem maskOff_real (j : Fin 16) : ∃ d : ℝ, maskOff n j = (d : EReal) := by
  unfold maskOff Scalar.select
  split
  · exact ⟨0, Ideal.ofBits_zero_f32⟩
  · refine ⟨11368684 * 2 ^ 43, ?_⟩
    simp [big, Ideal.ofBits, Ideal.ieee]

/-- Every one of the sixteen later weights is a positive real. -/
theorem wj_real_pos (j : Fin 16) (h : Fin 512) : ∃ e : ℝ, 0 < e ∧ wj x s awi awh abias n j h = (e : EReal) := by
  obtain ⟨d, hd⟩ := maskOff_real n j
  unfold wj alpha
  rw [hd]
  exact Ideal.exp_logistic_sub_real_pos _ d

/-- With real skip rows the two ways of averaging agree. -/
theorem merged_eq (hs : ∀ j k, ∃ r : ℝ, s j k = (r : EReal)) (h : Fin 512) :
    mergedNormalised x s hp wih whh awi awh bias abias n h = merged x s hp wih whh awi awh bias abias n h := by
  unfold mergedNormalised merged
  have := Ideal.weighted_average_eq (gCand x hp wih whh bias h) (w0 x hp wih whh bias h) (fun j => s j h)
    (fun j => wj x s awi awh abias n j h) (Ideal.tanh_real _) (Ideal.exp_logistic_real_pos _) (fun j => hs j h)
    (fun j => wj_real_pos x s awi awh abias n j h)
  simpa only [zero_add] using this

/-- A one-bit value widened to 32 bits and read signed is the bit read unsigned. -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  have e : (b.setWidth 32).toInt = (b.toNat : ℤ) := by revert b; decide
  rw [e]; simp

end Row

/-! ## The whole arrays

The cell over all 4096 rows: entry `(b, h)` of each result is the row function of row `b` of every row-indexed
argument, the shared weights and biases whole. Shapes are literal, so the same functions serve every program. -/

section Arrays

open Idealize.ShloMosaic.ValueIdx

variable (a0 : (⟨2, ![4096, 512]⟩ : Shape).Idx → EReal) (a1 : (⟨3, ![4096, 16, 512]⟩ : Shape).Idx → EReal)
  (a2 a3 : (⟨2, ![4096, 512]⟩ : Shape).Idx → EReal) (a4 a5 : (⟨2, ![512, 1536]⟩ : Shape).Idx → EReal)
  (a6 a7 : (⟨2, ![512, 512]⟩ : Shape).Idx → EReal) (a8 : (⟨1, ![1536]⟩ : Shape).Idx → EReal)
  (a9 : (⟨1, ![512]⟩ : Shape).Idx → EReal) (a10 : (⟨1, ![4096]⟩ : Shape).Idx → BitVec 32)

/-- The new cell state, all rows. -/
def C1 : (⟨2, ![4096, 512]⟩ : Shape).Idx → EReal := fun i =>
  c1 (fun k => a0 (ix2 (i 0) k)) (fun j k => a1 (ix3 (i 0) j k)) (fun k => a2 (ix2 (i 0) k)) (fun k => a3 (ix2 (i 0) k))
    (fun k c => a4 (ix2 k c)) (fun k c => a5 (ix2 k c)) (fun k h => a6 (ix2 k h)) (fun k h => a7 (ix2 k h))
    (fun c => a8 (ix1 c)) (fun h => a9 (ix1 h)) (a10 (ix1 (i 0))) (i 1)

/-- The new hidden state, all rows. -/
def H1 : (⟨2, ![4096, 512]⟩ : Shape).Idx → EReal := fun i =>
  h1 (fun k => a0 (ix2 (i 0) k)) (fun j k => a1 (ix3 (i 0) j k)) (fun k => a2 (ix2 (i 0) k)) (fun k => a3 (ix2 (i 0) k))
    (fun k c => a4 (ix2 k c)) (fun k c => a5 (ix2 k c)) (fun k h => a6 (ix2 k h)) (fun k h => a7 (ix2 k h))
    (fun c => a8 (ix1 c)) (fun h => a9 (ix1 h)) (a10 (ix1 (i 0))) (i 1)

end Arrays

end Cert.Lstm

end
-- ==== Proof.KernPayload.lean ====
/-
  What the kernel body stores, entry by entry, from one block of rows (at the exact-arithmetic instance).

  The body's two stored values — the new cell block and the new hidden block — read at entry `(p, q)` of the block
  are the row functions `c1` and `h1` of row `p` of each loaded block: the loaded input rows, skip rows, previous hidden
  and cell rows and the count, with the weight matrices and the two bias rows whole. Each step of the body is pushed
  to the entry: the products are sums over the contracted positions, the slices shift the gate column by 0, 512 and
  1024, the reshape of the skip block is undone around the third product, every broadcast reads through its unit
  axis, and the two lane sums run over the sixteen skip rows.
-/
import proofs.«420897_j40261023432819_3_alg».proof.Proof.KernLayout
import proofs.«420897_j40261023432819_3_alg».proof.Proof.Spec

noncomputable section

namespace Cert.Lstm.Kern

open Cert.KernelIdeal Cert.KernelIdeal.Gen Idealize.ShloMosaic Idealize.ShloMosaic.ValueIdx

variable (v0 : Vec Ideal S128x512 .bf16) (v2 : Vec Ideal S128x16x512 .f32) (v3 v4 : Vec Ideal S128x512 .f32)
  (v5 : Vec Ideal S128x1 .i32) (v7 : Vec Ideal S512x1536 .bf16) (v9 : Vec Ideal S512x1536 .f32)
  (v10 : Vec Ideal S512x512 .bf16) (v12 : Vec Ideal S512x512 .f32) (v16 : Vec Ideal S1x1536 .f32) (v35 : Vec Ideal S1x512 .f32)

/-- The gate pre-activations of row `p`, column `c`. -/
theorem gates_apply (p : Fin 128) (c : Fin 1536) :
    k0_pay5 (F := Ideal) v0 v3 v7 v9 v16 (ix2 p c)
      = gate (fun k => v0 (ix2 p k)) (fun k => v3 (ix2 p k)) (fun k c => v7 (ix2 k c)) (fun k c => v9 (ix2 k c))
          (fun c => v16 (ix2 0 c)) c := by
  have e0 : k0_pay3 (F := Ideal) v0 = v0 := shapeCast_self v0 _
  have e7 : shapeCast S512x1536 v7 shapeCasts_S512x1536_S512x1536 = v7 := shapeCast_self v7 _
  have e16 : shapeCast S1x1536 v16 shapeCasts_S1x1536_S1x1536 = v16 := shapeCast_self v16 _
  unfold k0_pay5 gate
  simp only [e0, e7, e16, addf_apply, mmGate_apply, spread_bias2]

/-- The input gate: the first third of the gate columns through the logistic function. -/
theorem igate_apply (p : Fin 128) (h : Fin 512) :
    k0_pay6 (F := Ideal) v0 v3 v7 v9 v16 (ix2 p h)
      = iGate (fun k => v0 (ix2 p k)) (fun k => v3 (ix2 p k)) (fun k c => v7 (ix2 k c)) (fun k c => v9 (ix2 k c))
          (fun c => v16 (ix2 0 c)) h := by
  unfold k0_pay6 iGate
  show Ideal.logistic (extractStridedSlice S128x512 ![0, 0] (k0_pay5 v0 v3 v7 v9 v16) slices_S128x1536_o0_0_S128x512 (ix2 p h)) = _
  rw [extractStridedSlice_apply ![0, 0] _ _ (ix2 p h) (ix2 p ⟨h.val, by omega⟩)
    (fun a => by match a with | ⟨0, _⟩ => show p.val = 0 + p.val; omega | ⟨1, _⟩ => show h.val = 0 + h.val; omega), gates_apply]

/-- The output gate: the second third. -/
theorem ogate_apply (p : Fin 128) (h : Fin 512) :
    k0_pay7 (F := Ideal) v0 v3 v7 v9 v16 (ix2 p h)
      = oGate (fun k => v0 (ix2 p k)) (fun k => v3 (ix2 p k)) (fun k c => v7 (ix2 k c)) (fun k c => v9 (ix2 k c))
          (fun c => v16 (ix2 0 c)) h := by
  unfold k0_pay7 oGate
  show Ideal.logistic (extractStridedSlice S128x512 ![0, 512] (k0_pay5 v0 v3 v7 v9 v16) slices_S128x1536_o0_512_S128x512 (ix2 p h)) = _
  rw [extractStridedSlice_apply ![0, 512] _ _ (ix2 p h) (ix2 p ⟨h.val + 512, by omega⟩)
    (fun a => by match a with | ⟨0, _⟩ => show p.val = 0 + p.val; omega | ⟨1, _⟩ => show h.val + 512 = 512 + h.val; omega), gates_apply]

/-- The candidate: the last third through the hyperbolic tangent. -/
theorem cand_apply (p : Fin 128) (h : Fin 512) :
    k0_pay8 (F := Ideal) v0 v3 v7 v9 v16 (ix2 p h)
      = gCand (fun k => v0 (ix2 p k)) (fun k => v3 (ix2 p k)) (fun k c => v7 (ix2 k c)) (fun k c => v9 (ix2 k c))
          (fun c => v16 (ix2 0 c)) h := by
  unfold k0_pay8 gCand
  show Ideal.tanh (extractStridedSlice S128x512 ![0, 1024] (k0_pay5 v0 v3 v7 v9 v16) slices_S128x1536_o0_1024_S128x512 (ix2 p h)) = _
  rw [extractStridedSlice_apply ![0, 1024] _ _ (ix2 p h) (ix2 p ⟨h.val + 1024, by omega⟩)
    (fun a => by match a with | ⟨0, _⟩ => show p.val = 0 + p.val; omega | ⟨1, _⟩ => show h.val + 1024 = 1024 + h.val; omega), gates_apply]

/-- The plain cell update. -/
theorem basic_apply (p : Fin 128) (h : Fin 512) :
    k0_pay9 (F := Ideal) v0 v3 v4 v7 v9 v16 (ix2 p h)
      = basic (fun k => v0 (ix2 p k)) (fun k => v3 (ix2 p k)) (fun k => v4 (ix2 p k)) (fun k c => v7 (ix2 k c))
          (fun k c => v9 (ix2 k c)) (fun c => v16 (ix2 0 c)) h := by
  unfold k0_pay9 basic
  show (one - k0_pay6 v0 v3 v7 v9 v16 (ix2 p h)) * v4 (ix2 p h)
      + k0_pay6 v0 v3 v7 v9 v16 (ix2 p h) * k0_pay8 v0 v3 v7 v9 v16 (ix2 p h) = _
  rw [igate_apply, cand_apply]

/-- The input row's attention score, shared by the sixteen skip rows. -/
theorem attn_apply (p : Fin 128) (h : Fin 512) :
    k0_pay10 (F := Ideal) v0 v10 (ix2 p h) = ∑ k : Fin 512, v0 (ix2 p k) * v10 (ix2 k h) := by
  have e0 : k0_pay3 (F := Ideal) v0 = v0 := shapeCast_self v0 _
  have e10 : shapeCast S512x512 v10 shapeCasts_S512x512_S512x512 = v10 := shapeCast_self v10 _
  unfold k0_pay10
  simp only [e0, e10, mmAttn_apply]

/-- The sixteen masked attention scores of every row, as the body computes them: the input row's score spread over the
    skip rows, plus each skip row's own score (the third product, reshaped back), plus the attention bias, through the
    logistic function, less what the mask takes off. -/
def scores (v6 : IVec S128x1 32) (v31 : FVec Ideal S128x512 .f32) : FVec Ideal S128x16x512 .f32 :=
  subf (logistic (addf (addf (broadcastTo S128x16x512 (shapeCast S128x1x512 v31 shapeCasts_S128x512_S128x1x512) broadcasts_S128x1x512_S128x16x512)
        (shapeCast S128x16x512 (matmul (φ₁ := .f32) (φ₂ := .f32) dot_S2048x512_S512x512_S2048x512_1_0_0_1_n_n (some .fp32) (k0_pay11 v2) v12 (constant S2048x512 .f32 0x00000000#32)) shapeCasts_S2048x512_S128x16x512))
      (broadcastTo S128x16x512 (shapeCast S1x1x512 (shapeCast S1x512 v35 shapeCasts_S1x512_S1x512) shapeCasts_S1x512_S1x1x512) broadcasts_S1x1x512_S128x16x512)))
    (broadcastTo S128x16x512 (shapeCast S128x16x1 (select (cmpi .slt (iota .tc S128x16 32 [1] iota_S128x16_d1_w32) (broadcastTo S128x16 v6 broadcasts_S128x1_S128x16))
        (broadcast S128x16 (Scalar.ofBits (F := Ideal) .f32 0x00000000#32)) (broadcast S128x16 (Scalar.ofBits (F := Ideal) .f32 0x60AD78EC#32))) shapeCasts_S128x16_S128x16x1) broadcasts_S128x16x1_S128x16x512)

/-- Skip row `j` of batch row `p`, column `q`: its masked score. -/
theorem scores_apply (v6 : IVec S128x1 32) (v31 : FVec Ideal S128x512 .f32) (p : Fin 128) (j : Fin 16) (q : Fin 512) :
    scores v2 v12 v35 v6 v31 (ix3 p j q)
      = Ideal.logistic (((v31 (ix2 p q)) + (∑ k : Fin 512, v2 (ix3 p j k) * v12 (ix2 k q))) + v35 (ix2 0 q)) - maskOff (v6 (ix2 p 0)) j := by
  unfold scores
  show Ideal.logistic ((broadcastTo S128x16x512 (shapeCast S128x1x512 v31 _) _ (ix3 p j q)
        + shapeCast S128x16x512 (matmul (φ₁ := .f32) (φ₂ := .f32) dot_S2048x512_S512x512_S2048x512_1_0_0_1_n_n (some .fp32) (k0_pay11 v2) v12 (constant S2048x512 .f32 0x00000000#32)) _ (ix3 p j q))
        + broadcastTo S128x16x512 (shapeCast S1x1x512 (shapeCast S1x512 v35 _) _) _ (ix3 p j q))
      - broadcastTo S128x16x512 (shapeCast S128x16x1 _ _) _ (ix3 p j q) = _
  rw [spread_rows, spread_bias3, spread_cols, unflatten_apply, mmSkip_apply]
  unfold k0_pay11 maskOff
  simp only [flatten_apply]
  show _ - Scalar.select (IntOp.cmpi .slt (iota .tc S128x16 32 [1] iota_S128x16_d1_w32 (ix2 p j)) (broadcastTo S128x16 v6 broadcasts_S128x1_S128x16 (ix2 p j))) zero big = _
  rw [iota_col, spread_col16]

/-- The new cell block, entry `(p, q)`, from ANY gate, candidate, plain-update and attention blocks: the weighted
    average of the candidate and the sixteen skip rows, chosen against the plain update by the count. -/
theorem cell_apply (v6 : IVec S128x1 32) (v23 v25 v30 v31 : FVec Ideal S128x512 .f32) (p : Fin 128) (q : Fin 512) :
    k0_pay1 (F := Ideal) v2 v6 v12 v23 v25 v30 v31 (k0_pay11 v2) (constant S2048x512 .f32 0x00000000#32) v35 (ix2 p q)
      = Ideal.div
          (v25 (ix2 p q) * Ideal.exp (v23 (ix2 p q))
            + ∑ j : Fin 16, v2 (ix3 p j q) * Ideal.exp (Ideal.logistic (((v31 (ix2 p q)) + (∑ k : Fin 512, v2 (ix3 p j k) * v12 (ix2 k q))) + v35 (ix2 0 q)) - maskOff (v6 (ix2 p 0)) j))
          (Ideal.exp (v23 (ix2 p q))
            + ∑ j : Fin 16, Ideal.exp (Ideal.logistic (((v31 (ix2 p q)) + (∑ k : Fin 512, v2 (ix3 p j k) * v12 (ix2 k q))) + v35 (ix2 0 q)) - maskOff (v6 (ix2 p 0)) j))
          * hasSkips (v6 (ix2 p 0))
        + v30 (ix2 p q) * (one - hasSkips (v6 (ix2 p 0))) := by
  have r1 := lane_sum (mulf v2 (exp (scores v2 v12 v35 v6 v31))) reduces_S128x16x512_S128x512 (.inl rfl) rfl p q
  have r2 := lane_sum (exp (scores v2 v12 v35 v6 v31)) reduces_S128x16x512_S128x512 (.inl rfl) rfl p q
  have b1 := spread_col512 (sitofp (F := Ideal) .f32 (extui 32 (cmpi .ne v6 (broadcast S128x1 0#32)) natLt_1_32)) broadcasts_S128x1_S128x512 p q
  have b2 := spread_col512 (subf (broadcast S128x1 (Scalar.ofBits (F := Ideal) .f32 0x3F800000#32))
    (sitofp (F := Ideal) .f32 (extui 32 (cmpi .ne v6 (broadcast S128x1 0#32)) natLt_1_32))) broadcasts_S128x1_S128x512 p q
  have hexp : ∀ (v : FVec Ideal S128x16x512 .f32) (i : S128x16x512.Idx), exp v i = Ideal.exp (v i) := fun _ _ => rfl
  unfold k0_pay1
  refine (congrArg₂ (· + ·) (congrArg₂ (· * ·) (congrArg₂ Ideal.div (congrArg (v25 (ix2 p q) * Ideal.exp (v23 (ix2 p q)) + ·) r1)
    (congrArg (Ideal.exp (v23 (ix2 p q)) + ·) r2)) b1) (congrArg (v30 (ix2 p q) * ·) b2)).trans ?_
  simp only [mulf_apply, hexp, scores_apply]
  rfl

/-- THE NEW CELL BLOCK from one block of rows: entry `(p, q)` is the row function `c1` of row `p`'s data. -/
theorem cell_block (p : Fin 128) (q : Fin 512) :
    k0_pay1 (F := Ideal) v2 (k0_pay4 v5) v12 (k0_pay6 v0 v3 v7 v9 v16) (k0_pay8 v0 v3 v7 v9 v16) (k0_pay9 v0 v3 v4 v7 v9 v16)
        (k0_pay10 v0 v10) (k0_pay11 v2) (constant S2048x512 .f32 0x00000000#32) v35 (ix2 p q)
      = c1 (fun k => v0 (ix2 p k)) (fun j k => v2 (ix3 p j k)) (fun k => v3 (ix2 p k)) (fun k => v4 (ix2 p k))
          (fun k c => v7 (ix2 k c)) (fun k c => v9 (ix2 k c)) (fun k h => v10 (ix2 k h)) (fun k h => v12 (ix2 k h))
          (fun c => v16 (ix2 0 c)) (fun h => v35 (ix2 0 h)) (v5 (ix2 p 0)) q := by
  have e5 : k0_pay4 v5 = v5 := shapeCast_self v5 _
  rw [cell_apply, e5, igate_apply, cand_apply, basic_apply, attn_apply]
  rfl

/-- THE NEW HIDDEN BLOCK: the output gate times the hyperbolic tangent of the new cell entry. -/
theorem hidden_block (p : Fin 128) (q : Fin 512) :
    k0_pay2 (F := Ideal) v2 (k0_pay4 v5) v12 (k0_pay6 v0 v3 v7 v9 v16) (k0_pay7 v0 v3 v7 v9 v16) (k0_pay8 v0 v3 v7 v9 v16)
        (k0_pay9 v0 v3 v4 v7 v9 v16) (k0_pay10 v0 v10) (k0_pay11 v2) (constant S2048x512 .f32 0x00000000#32) v35 (ix2 p q)
      = h1 (fun k => v0 (ix2 p k)) (fun j k => v2 (ix3 p j k)) (fun k => v3 (ix2 p k)) (fun k => v4 (ix2 p k))
          (fun k c => v7 (ix2 k c)) (fun k c => v9 (ix2 k c)) (fun k h => v10 (ix2 k h)) (fun k h => v12 (ix2 k h))
          (fun c => v16 (ix2 0 c)) (fun h => v35 (ix2 0 h)) (v5 (ix2 p 0)) q := by
  unfold k0_pay2 h1
  show k0_pay7 v0 v3 v7 v9 v16 (ix2 p q) * Ideal.tanh (k0_pay1 v2 (k0_pay4 v5) v12 (k0_pay6 v0 v3 v7 v9 v16) (k0_pay8 v0 v3 v7 v9 v16)
      (k0_pay9 v0 v3 v4 v7 v9 v16) (k0_pay10 v0 v10) (k0_pay11 v2) (constant S2048x512 .f32 0x00000000#32) v35 (ix2 p q)) = _
  rw [ogate_apply, cell_block]

end Cert.Lstm.Kern

end
-- ==== Proof.KernBlocks.lean ====
/-
  From blocks to arrays: the kernel's two result arrays, whole, as functions of the argument arrays.

  The call runs the body at 32 grid points; point `t` sees rows `128 t … 128 t + 127` of the five row-indexed
  operands (input, skip rows, previous hidden and cell state, count) and ALL of the six others (the four weight
  matrices and two bias rows), and writes rows `128 t … 128 t + 127` of the two results. Three operands are the
  arguments narrowed to a 16-bit format before the call — the identity at exact arithmetic — and three are arguments
  reshaped with a unit axis. So what point `t` writes back is block `t` of the whole-array functions `H1` and `C1` of
  the arguments (the body's entry being the row function of the row's data), and the 32 blocks tile the 4096 rows.
-/
import proofs.«420897_j40261023432819_3_alg».proof.Proof.Gen.KernelIdeal.Value
import proofs.«420897_j40261023432819_3_alg».proof.Proof.KernPayload
import Idealize.ShloMosaic.Lib.StableHlo.Run

set_option maxRecDepth 16384

noncomputable section

namespace Cert.Lstm.Kern

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The operands the host writes before the call -/

/-- Narrowing the input to a 16-bit format changes nothing at exact arithmetic. -/
theorem V_inp (c : Dev nD) : (V m c main_v3 : S4096x512.Idx → EReal) = m ((c : Thread nD τ).loc main_arg0) := by
  dsimp only [Gen.V, Gen.hostOps0]; after_results; rfl
theorem V_wih (c : Dev nD) : (V m c main_v4 : S512x1536.Idx → EReal) = m ((c : Thread nD τ).loc main_arg4) := by
  dsimp only [Gen.V, Gen.hostOps0]; after_results; rfl
theorem V_awi (c : Dev nD) : (V m c main_v5 : S512x512.Idx → EReal) = m ((c : Thread nD τ).loc main_arg6) := by
  dsimp only [Gen.V, Gen.hostOps0]; after_results; rfl

/-- The gate bias as one row, the attention bias as one row, the counts as one column. -/
theorem V_bias (c : Dev nD) : (V m c main_v0 : S1x1536.Idx → EReal)
    = shapeCast S1x1536 (m ((c : Thread nD τ).loc main_arg8)) shapeCasts_S1536_S1x1536 := by
  dsimp only [Gen.V, Gen.hostOps0]; after_results; rfl
theorem V_abias (c : Dev nD) : (V m c main_v1 : S1x512.Idx → EReal)
    = shapeCast S1x512 (m ((c : Thread nD τ).loc main_arg9)) shapeCasts_S512_S1x512 := by
  dsimp only [Gen.V, Gen.hostOps0]; after_results; rfl
theorem V_cnt (c : Dev nD) : (V m c main_v2 : S4096x1.Idx → BitVec 32)
    = shapeCast S4096x1 (m ((c : Thread nD τ).loc main_arg10)) shapeCasts_S4096_S4096x1 := by
  dsimp only [Gen.V, Gen.hostOps0]; after_results; rfl

/-! ## The index maps, decided over the 32 points -/

theorem hz2 : (![0, 0] : Fin 2 → Nat) = fun _ => 0 := funext fun a => by fin_cases a <;> rfl
theorem hz3 : (![0, 0, 0] : Fin 3 → Nat) = fun _ => 0 := funext fun a => by fin_cases a <;> rfl

/-- Each row-indexed window's block index is the point's number on the row axis and zero elsewhere; every other
    window stays at block zero. -/
theorem idx_facts : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- The array row that entry `p` of point `t`'s block is. -/
abbrev rowAt (t : Fin cfg0.N) (p : Fin 128) : Fin 4096 :=
  ⟨128 * t.val + p.val, by have ht : t.val < 32 := t.isLt; have hp := p.isLt; omega⟩

/-! ## Each window's block, as rows of its array -/

theorem blk_inp (c : Dev nD) (t : Fin cfg0.N) (p : Fin 128) (k : Fin 512) :
    iblk m c 0 t (ix2 p k) = m ((c : Thread nD τ).loc main_arg0) (ix2 (rowAt t p) k) := by
  obtain ⟨⟨e0, e1⟩, -⟩ := idx_facts t
  show V m c main_v3 (((cfg0.win 0).blk t).view.emb (ix2 p k)) = _
  rw [V_inp]
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 512 + 1 * k.val = k.val; omega

theorem blk_skip (c : Dev nD) (t : Fin cfg0.N) (p : Fin 128) (j : Fin 16) (k : Fin 512) :
    iblk m c 1 t (ix3 p j k) = m ((c : Thread nD τ).loc main_arg1) (ix3 (rowAt t p) j k) := by
  obtain ⟨-, ⟨e0, e1, e2⟩, -⟩ := idx_facts t
  show V m c main_arg1 (((cfg0.win 1).blk t).view.emb (ix3 p j k)) = _
  rw [V_main_arg1]
  refine congrArg _ (funext fun a => Fin.ext ?_)
  match a with
  | ⟨0, _⟩ => show win0_1.index t (0 : Fin 3) * 128 + 1 * p.val = 128 * t.val + p.val; omega
  | ⟨1, _⟩ => show win0_1.index t (1 : Fin 3) * 16 + 1 * j.val = j.val; omega
  | ⟨2, _⟩ => show win0_1.index t (2 : Fin 3) * 512 + 1 * k.val = k.val; omega

theorem blk_hprev (c : Dev nD) (t : Fin cfg0.N) (p : Fin 128) (k : Fin 512) :
    iblk m c 2 t (ix2 p k) = m ((c : Thread nD τ).loc main_arg2) (ix2 (rowAt t p) k) := by
  obtain ⟨-, -, ⟨e0, e1⟩, -⟩ := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 512 + 1 * k.val = k.val; omega

theorem blk_cprev (c : Dev nD) (t : Fin cfg0.N) (p : Fin 128) (k : Fin 512) :
    iblk m c 3 t (ix2 p k) = m ((c : Thread nD τ).loc main_arg3) (ix2 (rowAt t p) k) := by
  obtain ⟨-, -, -, ⟨e0, e1⟩, -⟩ := idx_facts t
  show V m c main_arg3 (((cfg0.win 3).blk t).view.emb (ix2 p k)) = _
  rw [V_main_arg3]
  refine congrArg _ (funext fun a => Fin.ext ?_)
  match a with
  | ⟨0, _⟩ => show win0_3.index t (0 : Fin 2) * 128 + 1 * p.val = 128 * t.val + p.val; omega
  | ⟨1, _⟩ => show win0_3.index t (1 : Fin 2) * 512 + 1 * k.val = k.val; omega

theorem blk_wih (c : Dev nD) (t : Fin cfg0.N) (k : Fin 512) (n : Fin 1536) :
    iblk m c 4 t (ix2 k n) = m ((c : Thread nD τ).loc main_arg4) (ix2 k n) := by
  obtain ⟨-, -, -, -, ⟨e0, e1⟩, -⟩ := idx_facts t
  show V m c main_v4 (((cfg0.win 4).blk t).view.emb (ix2 k n)) = _
  rw [V_wih]
  refine congrArg _ (funext fun a => Fin.ext ?_)
  match a with
  | ⟨0, _⟩ => show win0_4.index t (0 : Fin 2) * 512 + 1 * k.val = k.val; omega
  | ⟨1, _⟩ => show win0_4.index t (1 : Fin 2) * 1536 + 1 * n.val = n.val; omega

theorem blk_whh (c : Dev nD) (t : Fin cfg0.N) (k : Fin 512) (n : Fin 1536) :
    iblk m c 5 t (ix2 k n) = m ((c : Thread nD τ).loc main_arg5) (ix2 k n) := by
  obtain ⟨-, -, -, -, -, ⟨e0, e1⟩, -⟩ := idx_facts t
  show V m c main_arg5 (((cfg0.win 5).blk t).view.emb (ix2 k n)) = _
  rw [V_main_arg5]
  refine congrArg _ (funext fun a => Fin.ext ?_)
  match a with
  | ⟨0, _⟩ => show win0_5.index t (0 : Fin 2) * 512 + 1 * k.val = k.val; omega
  | ⟨1, _⟩ => show win0_5.index t (1 : Fin 2) * 1536 + 1 * n.val = n.val; omega

theorem blk_awi (c : Dev nD) (t : Fin cfg0.N) (k : Fin 512) (h : Fin 512) :
    iblk m c 6 t (ix2 k h) = m ((c : Thread nD τ).loc main_arg6) (ix2 k h) := by
  obtain ⟨-, -, -, -, -, -, ⟨e0, e1⟩, -⟩ := idx_facts t
  show V m c main_v5 (((cfg0.win 6).blk t).view.emb (ix2 k h)) = _
  rw [V_awi]
  refine congrArg _ (funext fun a => Fin.ext ?_)
  match a with
  | ⟨0, _⟩ => show win0_6.index t (0 : Fin 2) * 512 + 1 * k.val = k.val; omega
  | ⟨1, _⟩ => show win0_6.index t (1 : Fin 2) * 512 + 1 * h.val = h.val; omega

theorem blk_awh (c : Dev nD) (t : Fin cfg0.N) (k : Fin 512) (h : Fin 512) :
    iblk m c 7 t (ix2 k h) = m ((c : Thread nD τ).loc main_arg7) (ix2 k h) := by
  obtain ⟨-, -, -, -, -, -, -, ⟨e0, e1⟩, -⟩ := idx_facts t
  show V m c main_arg7 (((cfg0.win 7).blk t).view.emb (ix2 k h)) = _
  rw [V_main_arg7]
  refine congrArg _ (funext fun a => Fin.ext ?_)
  match a with
  | ⟨0, _⟩ => show win0_7.index t (0 : Fin 2) * 512 + 1 * k.val = k.val; omega
  | ⟨1, _⟩ => show win0_7.index t (1 : Fin 2) * 512 + 1 * h.val = h.val; omega

theorem blk_bias (c : Dev nD) (t : Fin cfg0.N) (n : Fin 1536) :
    iblk m c 8 t (ix2 0 n) = m ((c : Thread nD τ).loc main_arg8) (ix1 n) := by
  obtain ⟨-, -, -, -, -, -, -, -, ⟨e0, e1⟩, -⟩ := idx_facts t
  show V m c main_v0 (((cfg0.win 8).blk t).view.emb (ix2 0 n)) = _
  rw [V_bias]
  refine shapeCast_apply _ _ _ (ix1 n) ?_
  rw [Shape.rowMajor_val_one, Shape.rowMajor_val_two]
  show n.val = (win0_8.index t (0 : Fin 2) * 1 + 1 * 0) * 1536 + (win0_8.index t (1 : Fin 2) * 1536 + 1 * n.val)
  omega

theorem blk_abias (c : Dev nD) (t : Fin cfg0.N) (h : Fin 512) :
    iblk m c 9 t (ix2 0 h) = m ((c : Thread nD τ).loc main_arg9) (ix1 h) := by
  obtain ⟨-, -, -, -, -, -, -, -, -, ⟨e0, e1⟩, -⟩ := idx_facts t
  show V m c main_v1 (((cfg0.win 9).blk t).view.emb (ix2 0 h)) = _
  rw [V_abias]
  refine shapeCast_apply _ _ _ (ix1 h) ?_
  rw [Shape.rowMajor_val_one, Shape.rowMajor_val_two]
  show h.val = (win0_9.index t (0 : Fin 2) * 1 + 1 * 0) * 512 + (win0_9.index t (1 : Fin 2) * 512 + 1 * h.val)
  omega

theorem blk_cnt (c : Dev nD) (t : Fin cfg0.N) (p : Fin 128) :
    iblk m c 10 t (ix2 p 0) = m ((c : Thread nD τ).loc main_arg10) (ix1 (rowAt t p)) := by
  obtain ⟨-, -, -, -, -, -, -, -, -, -, ⟨e0, e1⟩, -⟩ := idx_facts t
  show V m c main_v2 (((cfg0.win 10).blk t).view.emb (ix2 p 0)) = _
  rw [V_cnt]
  refine shapeCast_apply _ _ _ (ix1 (rowAt t p)) ?_
  rw [Shape.rowMajor_val_one, Shape.rowMajor_val_two]
  show 128 * t.val + p.val = (win0_10.index t (0 : Fin 2) * 128 + 1 * p.val) * 1 + (win0_10.index t (1 : Fin 2) * 1 + 1 * 0)
  omega

/-- Entry `(p, q)` of point `t`'s result block is array entry `(128 t + p, q)`, for either result. -/
theorem emb_h1 (t : Fin cfg0.N) (p : Fin 128) (q : Fin 512) :
    ((cfg0.win 11).blk t).view.emb (ix2 p q) = ix2 (rowAt t p) q := by
  obtain ⟨-, -, -, -, -, -, -, -, -, -, -, ⟨e0, e1⟩, -⟩ := idx_facts t
  funext a; apply Fin.ext
  match a with
  | ⟨0, _⟩ => show win0_11.index t (0 : Fin 2) * 128 + 1 * p.val = 128 * t.val + p.val; omega
  | ⟨1, _⟩ => show win0_11.index t (1 : Fin 2) * 512 + 1 * q.val = q.val; omega
theorem emb_c1 (t : Fin cfg0.N) (p : Fin 128) (q : Fin 512) :
    ((cfg0.win 12).blk t).view.emb (ix2 p q) = ix2 (rowAt t p) q := by
  obtain ⟨-, -, -, -, -, -, -, -, -, -, -, -, ⟨e0, e1⟩⟩ := idx_facts t
  funext a; apply Fin.ext
  match a with
  | ⟨0, _⟩ => show win0_12.index t (0 : Fin 2) * 128 + 1 * p.val = 128 * t.val + p.val; omega
  | ⟨1, _⟩ => show win0_12.index t (1 : Fin 2) * 512 + 1 * q.val = q.val; omega

/-! ## What each point writes back -/

/-- Point `t` writes back block `t` of `C1` of the argument arrays. -/
theorem flushed_c1 (c : Dev nD) (t : Fin cfg0.N) :
    (dats m 0 c).flushed 12 t = ((cfg0.win 12).blk t).view.read (Elt Ideal) (C1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Cert.KernelIdeal.Value.flushed12]
  unfold out0_12
  rw [View.canon_unit_zero hz2]
  simp only [View.ld_unit_zero (S := S128x512) hz2, View.ld_unit_zero (S := S128x16x512) hz3, View.ld_unit_zero (S := S128x1) hz2,
    View.ld_unit_zero (S := S512x1536) hz2, View.ld_unit_zero (S := S512x512) hz2, View.ld_unit_zero (S := S1x1536) hz2,
    View.ld_unit_zero (S := S1x512) hz2]
  funext y
  obtain ⟨p, q, rfl⟩ : ∃ (p : Fin 128) (q : Fin 512), y = ix2 p q := ⟨y 0, y 1, eq_ix2 y⟩
  show k0_pay1 (iblk m c 1 t) (k0_pay4 (iblk m c 10 t)) (iblk m c 7 t) (k0_pay6 (iblk m c 0 t) (iblk m c 2 t) (iblk m c 4 t) (iblk m c 5 t) (iblk m c 8 t))
      (k0_pay8 (iblk m c 0 t) (iblk m c 2 t) (iblk m c 4 t) (iblk m c 5 t) (iblk m c 8 t)) (k0_pay9 (iblk m c 0 t) (iblk m c 2 t) (iblk m c 3 t) (iblk m c 4 t) (iblk m c 5 t) (iblk m c 8 t))
      (k0_pay10 (iblk m c 0 t) (iblk m c 6 t)) (k0_pay11 (iblk m c 1 t)) (constant S2048x512 .f32 0x00000000#32) (iblk m c 9 t) (ix2 p q)
    = C1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 12).blk t).view.emb (ix2 p q))
  refine (cell_block (iblk m c 0 t) (iblk m c 1 t) (iblk m c 2 t) (iblk m c 3 t) (iblk m c 10 t) (iblk m c 4 t) (iblk m c 5 t) (iblk m c 6 t) (iblk m c 7 t) (iblk m c 8 t) (iblk m c 9 t) p q).trans ?_
  rw [emb_c1]
  unfold C1
  simp only [blk_inp, blk_skip, blk_hprev, blk_cprev, blk_wih, blk_whh, blk_awi, blk_awh, blk_bias, blk_abias, blk_cnt]

/-- Point `t` writes back block `t` of `H1` of the argument arrays. -/
theorem flushed_h1 (c : Dev nD) (t : Fin cfg0.N) :
    (dats m 0 c).flushed 11 t = ((cfg0.win 11).blk t).view.read (Elt Ideal) (H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Cert.KernelIdeal.Value.flushed11]
  unfold out0_11
  rw [View.canon_unit_zero hz2]
  simp only [View.ld_unit_zero (S := S128x512) hz2, View.ld_unit_zero (S := S128x16x512) hz3, View.ld_unit_zero (S := S128x1) hz2,
    View.ld_unit_zero (S := S512x1536) hz2, View.ld_unit_zero (S := S512x512) hz2, View.ld_unit_zero (S := S1x1536) hz2,
    View.ld_unit_zero (S := S1x512) hz2]
  funext y
  obtain ⟨p, q, rfl⟩ : ∃ (p : Fin 128) (q : Fin 512), y = ix2 p q := ⟨y 0, y 1, eq_ix2 y⟩
  show k0_pay2 (iblk m c 1 t) (k0_pay4 (iblk m c 10 t)) (iblk m c 7 t) (k0_pay6 (iblk m c 0 t) (iblk m c 2 t) (iblk m c 4 t) (iblk m c 5 t) (iblk m c 8 t))
      (k0_pay7 (iblk m c 0 t) (iblk m c 2 t) (iblk m c 4 t) (iblk m c 5 t) (iblk m c 8 t)) (k0_pay8 (iblk m c 0 t) (iblk m c 2 t) (iblk m c 4 t) (iblk m c 5 t) (iblk m c 8 t))
      (k0_pay9 (iblk m c 0 t) (iblk m c 2 t) (iblk m c 3 t) (iblk m c 4 t) (iblk m c 5 t) (iblk m c 8 t))
      (k0_pay10 (iblk m c 0 t) (iblk m c 6 t)) (k0_pay11 (iblk m c 1 t)) (constant S2048x512 .f32 0x00000000#32) (iblk m c 9 t) (ix2 p q)
    = H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb (ix2 p q))
  refine (hidden_block (iblk m c 0 t) (iblk m c 1 t) (iblk m c 2 t) (iblk m c 3 t) (iblk m c 10 t) (iblk m c 4 t) (iblk m c 5 t) (iblk m c 6 t) (iblk m c 7 t) (iblk m c 8 t) (iblk m c 9 t) p q).trans ?_
  rw [emb_h1]
  unfold H1
  simp only [blk_inp, blk_skip, blk_hprev, blk_cprev, blk_wih, blk_whh, blk_awi, blk_awh, blk_bias, blk_abias, blk_cnt]

/-! ## The 32 blocks tile the 4096 rows -/

theorem mem_blk_h1 (t : Fin cfg0.N) (i : S4096x512.Idx) :
    i ∈ ((cfg0.win 11).blk t).view.set ↔ ∀ a : Fin 2, win0_11.index t a * S128x512.size a ≤ (i a).val ∧ (i a).val < win0_11.index t a * S128x512.size a + S128x512.size a := by
  show i ∈ ((View.whole main_v6_0).slice (win0_11.rect t)).set ↔ _
  rw [View.set_slice_whole, Rect.mem_set_unit]
  exact Iff.rfl
theorem mem_blk_c1 (t : Fin cfg0.N) (i : S4096x512.Idx) :
    i ∈ ((cfg0.win 12).blk t).view.set ↔ ∀ a : Fin 2, win0_12.index t a * S128x512.size a ≤ (i a).val ∧ (i a).val < win0_12.index t a * S128x512.size a + S128x512.size a := by
  show i ∈ ((View.whole main_v6_1).slice (win0_12.rect t)).set ↔ _
  rw [View.set_slice_whole, Rect.mem_set_unit]
  exact Iff.rfl

/-- Row `r` lies in the block of point `r / 128`. -/
theorem cover_h1 (i : S4096x512.Idx) : ∃ t : Fin cfg0.N, (cfg0.win 11).flush t = true ∧ i ∈ ((cfg0.win 11).blk t).view.set := by
  have hi0 : (i 0).val < 4096 := (i 0).isLt
  have hi1 : (i 1).val < 512 := (i 1).isLt
  refine ⟨⟨(i 0).val / 128, by show (i 0).val / 128 < 32; omega⟩, flush0_11 _, ?_⟩
  rw [mem_blk_h1]
  obtain ⟨-, -, -, -, -, -, -, -, -, -, -, ⟨e0, e1⟩, -⟩ := idx_facts ⟨(i 0).val / 128, by show (i 0).val / 128 < 32; omega⟩
  have e0' : win0_11.index ⟨(i 0).val / 128, by show (i 0).val / 128 < 32; omega⟩ (0 : Fin 2) = (i 0).val / 128 := e0
  intro a
  match a with
  | ⟨0, _⟩ => show win0_11.index _ (0 : Fin 2) * 128 ≤ (i 0).val ∧ (i 0).val < win0_11.index _ (0 : Fin 2) * 128 + 128; omega
  | ⟨1, _⟩ => show win0_11.index _ (1 : Fin 2) * 512 ≤ (i 1).val ∧ (i 1).val < win0_11.index _ (1 : Fin 2) * 512 + 512; omega
theorem cover_c1 (i : S4096x512.Idx) : ∃ t : Fin cfg0.N, (cfg0.win 12).flush t = true ∧ i ∈ ((cfg0.win 12).blk t).view.set := by
  have hi0 : (i 0).val < 4096 := (i 0).isLt
  have hi1 : (i 1).val < 512 := (i 1).isLt
  refine ⟨⟨(i 0).val / 128, by show (i 0).val / 128 < 32; omega⟩, flush0_12 _, ?_⟩
  rw [mem_blk_c1]
  obtain ⟨-, -, -, -, -, -, -, -, -, -, -, -, ⟨e0, e1⟩⟩ := idx_facts ⟨(i 0).val / 128, by show (i 0).val / 128 < 32; omega⟩
  have e0' : win0_12.index ⟨(i 0).val / 128, by show (i 0).val / 128 < 32; omega⟩ (0 : Fin 2) = (i 0).val / 128 := e0
  intro a
  match a with
  | ⟨0, _⟩ => show win0_12.index _ (0 : Fin 2) * 128 ≤ (i 0).val ∧ (i 0).val < win0_12.index _ (0 : Fin 2) * 128 + 128; omega
  | ⟨1, _⟩ => show win0_12.index _ (1 : Fin 2) * 512 ≤ (i 1).val ∧ (i 1).val < win0_12.index _ (1 : Fin 2) * 512 + 512; omega

/-! ## The two arrays after the run, and the run re-posted -/

theorem final_h1 (c : Dev nD) : (dats m 0 c).arrAt 11 cfg0.N = H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 _ (fun t _ => flushed_h1 m c t) cover_h1
theorem final_c1 (c : Dev nD) : (dats m 0 c).arrAt 12 cfg0.N = C1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 12 _ (fun t _ => flushed_c1 m c t) cover_c1

/-- The kernel's run: it ends with the hidden result at `H1` and the cell result at `C1` of the arguments, the
    arguments unchanged. -/
theorem run : θ_run defs (onTc (τ := τ) (main (F := Ideal))) ⟨m, fun _ => 0, ρ⟩ fun r => ∀ c : Dev nD,
      r.2.mem ((c : Thread nD τ).loc main_v6_0) = H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v6_1) = C1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_h1 m c), (h c).2.1.trans (final_c1 m c), (h c).2.2⟩)
    (Cert.KernelIdeal.Value.run_blocks m ρ)

end Cert.Lstm.Kern

end
-- ==== Proof.RefIsSpec.lean ====
/-
  The reference computes the cell.

  Entry `(b, h)` of the reference's new cell state and new hidden state is the row function of Spec.lean at row `b`,
  column `h`. Read bottom-up, one operation at a time:

    gates(b, c)   = Σₖ x0(b,k)·x4(k,c) + Σₖ x2(b,k)·x5(k,c) + x8(c)                        the row's gate column
    i, o          = 1 / (1 + e^{-gates})  on the first and second third of the columns      the logistic function spelled out
    g             = tanh gates            on the last third
    basic         = (1 − i)·x3 + i·g
    α(b, j, h)    = 1 / (1 + e^{-(Σₖ x0(b,k)·x6(k,h) + Σₖ x1(b,j,k)·x7(k,h) + x9(h))}) − (0 if j < x10(b), else 10²⁰)
    scores        = [i, α₀ … α₁₅]  joined along the middle axis,   values = [g, x1(b,0,·) … x1(b,15,·)]  likewise
    weights       = e^{scores},   total = Σ over the seventeen,   average = Σ values · (weights / total)
    c₁            = average · [x10(b) ≠ 0] + basic · (1 − [x10(b) ≠ 0]),      h₁ = o · tanh c₁

  A sum over the seventeen joined positions is its head (the broadcast piece) plus the sum over the sixteen
  positions `j + 1` (the second piece at `j`). The reference normalises each weight by the total and then sums; with real
  skip rows that is the sum-then-divide average of the row function (`Cert.Lstm.merged_eq`). The indicator is the
  one-bit compare read unsigned, which is the same bit widened to 32 bits and read signed.
-/
import proofs.«420897_j40261023432819_3_alg».proof.Proof.Gen.ReferenceIdeal.Read
import proofs.«420897_j40261023432819_3_alg».proof.Proof.Spec
import Idealize.ShloMosaic.Lib.Pipeline.Value
import Idealize.ShloMosaic.Lib.ValueIdx
import Idealize.ShloMosaic.PureOps.Ideal.Laws

noncomputable section

namespace Cert.Lstm.Ref

open Cert.ReferenceIdeal Cert.ReferenceIdeal.Read Idealize.ShloMosaic
open Idealize.ShloMosaic.ValueIdx

section Entries

variable (x0 : (⟨S4096x512, .f32⟩ : BufTy).Contents (Elt Ideal)) (x1 : (⟨S4096x16x512, .f32⟩ : BufTy).Contents (Elt Ideal))
  (x2 x3 : (⟨S4096x512, .f32⟩ : BufTy).Contents (Elt Ideal)) (x4 x5 : (⟨S512x1536, .f32⟩ : BufTy).Contents (Elt Ideal))
  (x6 x7 : (⟨S512x512, .f32⟩ : BufTy).Contents (Elt Ideal)) (x8 : (⟨S1536, .f32⟩ : BufTy).Contents (Elt Ideal))
  (x9 : (⟨S512, .f32⟩ : BufTy).Contents (Elt Ideal)) (x10 : (⟨S4096, .i32⟩ : BufTy).Contents (Elt Ideal))

/-- Column `c` of row `b` of the gate pre-activations is the row's gate column. -/
theorem v5_eq (b : Fin 4096) (c : Fin 1536) :
    val_main_v5 (F := Ideal) x0 x2 x4 x5 x8 (ix2 b c)
      = gate (fun k => x0 (ix2 b k)) (fun k => x2 (ix2 b k)) (fun k c => x4 (ix2 k c)) (fun k c => x5 (ix2 k c))
          (fun c => x8 (ix1 c)) c := by
  rw [val_main_v5_apply, val_main_v2_apply, val_main_v0_apply, val_main_v1_apply, val_main_v4_apply, val_main_v3_apply]
  unfold gate
  have e0 : ∀ k : Fin 512, lidx_main_v0 (ix2 b c) k = ix2 b k := fun k =>
    funext fun a => by match a with | ⟨0, _⟩ => rfl | ⟨1, _⟩ => rfl
  have e1 : ∀ k : Fin 512, ridx_main_v0 (ix2 b c) k = ix2 k c := fun k =>
    funext fun a => by match a with | ⟨0, _⟩ => rfl | ⟨1, _⟩ => rfl
  have e0' : ∀ k : Fin 512, lidx_main_v1 (ix2 b c) k = ix2 b k := fun k =>
    funext fun a => by match a with | ⟨0, _⟩ => rfl | ⟨1, _⟩ => rfl
  have e1' : ∀ k : Fin 512, ridx_main_v1 (ix2 b c) k = ix2 k c := fun k =>
    funext fun a => by match a with | ⟨0, _⟩ => rfl | ⟨1, _⟩ => rfl
  have e2 : idx_main_v3 (idx_main_v4 (ix2 b c)) = ix1 c :=
    funext fun a => by match a with | ⟨0, _⟩ => rfl
  simp only [Ideal.addf_def, e0, e1, e0', e1', e2]

/-- The input gate: the first third of the gate columns through the logistic function, which the program spells
    `1 / (1 + e^{-x})`. -/
theorem v14_eq (b : Fin 4096) (h : Fin 512) :
    val_main_v14 (F := Ideal) x0 x2 x4 x5 x8 (ix2 b h)
      = iGate (fun k => x0 (ix2 b k)) (fun k => x2 (ix2 b k)) (fun k c => x4 (ix2 k c)) (fun k c => x5 (ix2 k c))
          (fun c => x8 (ix1 c)) h := by
  rw [val_main_v14_apply, val_main_v13_apply, val_main_cst_0_apply, val_main_v12_apply, val_main_v11_apply,
    val_main_cst_apply, val_main_v10_apply, val_main_v9_apply, val_main_v6_apply]
  have e : idx_main_v6 (ix2 b h) = ix2 b (⟨h.val, by omega⟩ : Fin 1536) :=
    funext fun a => by match a with | ⟨0, _⟩ => rfl | ⟨1, _⟩ => rfl
  rw [e, v5_eq]
  unfold iGate Ideal.logistic
  simp only [Ideal.hostDivf_def, Ideal.addf_def, Ideal.hostUnary_exp_def, Ideal.hostNegf_def, Ideal.negf_def]
  rw [show (FloatOps.ofBits (F := Ideal) .f32 0x3F800000#32 : EReal) = 1 from one_eq]

/-- The output gate: the second third of the gate columns through the logistic function. -/
theorem v20_eq (b : Fin 4096) (h : Fin 512) :
    val_main_v20 (F := Ideal) x0 x2 x4 x5 x8 (ix2 b h)
      = oGate (fun k => x0 (ix2 b k)) (fun k => x2 (ix2 b k)) (fun k c => x4 (ix2 k c)) (fun k c => x5 (ix2 k c))
          (fun c => x8 (ix1 c)) h := by
  rw [val_main_v20_apply, val_main_v19_apply, val_main_cst_2_apply, val_main_v18_apply, val_main_v17_apply,
    val_main_cst_1_apply, val_main_v16_apply, val_main_v15_apply, val_main_v7_apply]
  have e : idx_main_v7 (ix2 b h) = ix2 b (⟨h.val + 512, by omega⟩ : Fin 1536) :=
    funext fun a => by
      match a with
      | ⟨0, _⟩ => rfl
      | ⟨1, _⟩ => exact Fin.ext (Nat.add_comm 512 h.val)
  rw [e, v5_eq]
  unfold oGate Ideal.logistic
  simp only [Ideal.hostDivf_def, Ideal.addf_def, Ideal.hostUnary_exp_def, Ideal.hostNegf_def, Ideal.negf_def]
  rw [show (FloatOps.ofBits (F := Ideal) .f32 0x3F800000#32 : EReal) = 1 from one_eq]

/-- The candidate: the last third of the gate columns through the hyperbolic tangent. -/
theorem v21_eq (b : Fin 4096) (h : Fin 512) :
    val_main_v21 (F := Ideal) x0 x2 x4 x5 x8 (ix2 b h)
      = gCand (fun k => x0 (ix2 b k)) (fun k => x2 (ix2 b k)) (fun k c => x4 (ix2 k c)) (fun k c => x5 (ix2 k c))
          (fun c => x8 (ix1 c)) h := by
  rw [val_main_v21_apply, val_main_v8_apply]
  have e : idx_main_v8 (ix2 b h) = ix2 b (⟨h.val + 1024, by omega⟩ : Fin 1536) :=
    funext fun a => by
      match a with
      | ⟨0, _⟩ => rfl
      | ⟨1, _⟩ => exact Fin.ext (Nat.add_comm 1024 h.val)
  rw [e, v5_eq]
  unfold gCand
  simp only [Ideal.hostUnary_tanh_def]

/-- The plain cell update. The program's one is the same word the row function's `one` is. -/
theorem v26_eq (b : Fin 4096) (h : Fin 512) :
    val_main_v26 (F := Ideal) x0 x2 x3 x4 x5 x8 (ix2 b h)
      = basic (fun k => x0 (ix2 b k)) (fun k => x2 (ix2 b k)) (fun k => x3 (ix2 b k)) (fun k c => x4 (ix2 k c))
          (fun k c => x5 (ix2 k c)) (fun c => x8 (ix1 c)) h := by
  rw [val_main_v26_apply, val_main_v24_apply, val_main_v25_apply, val_main_v23_apply, val_main_v22_apply,
    val_main_cst_3_apply, v14_eq, v21_eq]
  rfl

/-- What the mask takes off skip row `j` of batch row `b`: the select of the called function, read at `(b, j)`. -/
theorem v47_eq (b : Fin 4096) (j : Fin 16) :
    val_main_v47 (F := Ideal) x10 (ix2 b j) = maskOff (x10 (ix1 b)) j := by
  rw [val_main_v47_apply, val_main_v46_apply, val_main_call0_v0_apply, val_main_call0_v1_apply, val_main_cst_6_apply,
    val_main_cst_7_apply, val_main_v44_apply, val_main_v42_apply, val_main_v41_apply, val_main_v45_apply,
    val_main_v43_apply]
  have e : idx_main_v43 (idx_main_v45 (ix2 b j)) = ix1 b :=
    funext fun a => by match a with | ⟨0, _⟩ => rfl
  rw [e]
  rfl

/-- Skip row `j`'s masked score at column `h` of batch row `b`. -/
theorem v51_eq (b : Fin 4096) (j : Fin 16) (h : Fin 512) :
    val_main_v51 (F := Ideal) x0 x1 x6 x7 x9 x10 (ix3 b j h)
      = alpha (fun k => x0 (ix2 b k)) (fun j k => x1 (ix3 b j k)) (fun k h => x6 (ix2 k h)) (fun k h => x7 (ix2 k h))
          (fun h => x9 (ix1 h)) (x10 (ix1 b)) j h := by
  rw [val_main_v51_apply, val_main_v50_apply, val_main_v49_apply, val_main_v48_apply]
  have em : idx_main_v48 (idx_main_v50 (ix3 b j h)) = ix2 b j :=
    funext fun a => by match a with | ⟨0, _⟩ => rfl | ⟨1, _⟩ => rfl
  rw [em, v47_eq]
  rw [val_main_v40_apply, val_main_v39_apply, val_main_cst_5_apply, val_main_v38_apply, val_main_v37_apply,
    val_main_cst_4_apply, val_main_v36_apply, val_main_v35_apply, val_main_v34_apply, val_main_v31_apply,
    val_main_v30_apply, val_main_v28_apply, val_main_v27_apply, val_main_v29_apply, val_main_v33_apply,
    val_main_v32_apply]
  have e0 : ∀ k : Fin 512, lidx_main_v27 (idx_main_v28 (idx_main_v30 (ix3 b j h))) k = ix2 b k := fun k =>
    funext fun a => by match a with | ⟨0, _⟩ => rfl | ⟨1, _⟩ => rfl
  have e1 : ∀ k : Fin 512, ridx_main_v27 (idx_main_v28 (idx_main_v30 (ix3 b j h))) k = ix2 k h := fun k =>
    funext fun a => by match a with | ⟨0, _⟩ => rfl | ⟨1, _⟩ => rfl
  have e2 : ∀ k : Fin 512, lidx_main_v29 (ix3 b j h) k = ix3 b j k := fun k =>
    funext fun a => by match a with | ⟨0, _⟩ => rfl | ⟨1, _⟩ => rfl | ⟨2, _⟩ => rfl
  have e3 : ∀ k : Fin 512, ridx_main_v29 (ix3 b j h) k = ix2 k h := fun k =>
    funext fun a => by match a with | ⟨0, _⟩ => rfl | ⟨1, _⟩ => rfl
  have e4 : idx_main_v32 (idx_main_v33 (ix3 b j h)) = ix1 h :=
    funext fun a => by match a with | ⟨0, _⟩ => rfl
  unfold alpha Ideal.logistic
  simp only [Ideal.hostDivf_def, Ideal.addf_def, Ideal.subf_def, Ideal.hostUnary_exp_def, Ideal.hostNegf_def,
    Ideal.negf_def, e0, e1, e2, e3, e4]
  rw [show (FloatOps.ofBits (F := Ideal) .f32 0x3F800000#32 : EReal) = 1 from one_eq]

/-- The seventeen scores of row `b`, column `h`: at position zero the input gate. -/
theorem v53_zero (b : Fin 4096) (h : Fin 512) :
    val_main_v53 (F := Ideal) x0 x1 x2 x4 x5 x6 x7 x8 x9 x10 (ix3 b (0 : Fin 17) h)
      = iGate (fun k => x0 (ix2 b k)) (fun k => x2 (ix2 b k)) (fun k c => x4 (ix2 k c)) (fun k c => x5 (ix2 k c))
          (fun c => x8 (ix1 c)) h := by
  unfold val_main_v53
  rw [concatenate_pair_apply_left (s₁ := S4096x1x512) (s₂ := S4096x16x512) (1 : Fin 3) _ _ _ (ix3 b (0 : Fin 17) h) rfl
    (ix3 b (0 : Fin 1) h) (fun d => by match d with | ⟨0, _⟩ => rfl | ⟨1, _⟩ => rfl | ⟨2, _⟩ => rfl)]
  rw [val_main_v52_apply]
  have e : idx_main_v52 (ix3 b (0 : Fin 1) h) = ix2 b h :=
    funext fun a => by match a with | ⟨0, _⟩ => rfl | ⟨1, _⟩ => rfl
  rw [e, v14_eq]

/-- At position `j + 1` the masked score of skip row `j`. -/
theorem v53_succ (b : Fin 4096) (j : Fin 16) (h : Fin 512) :
    val_main_v53 (F := Ideal) x0 x1 x2 x4 x5 x6 x7 x8 x9 x10 (ix3 b (j.succ : Fin 17) h)
      = alpha (fun k => x0 (ix2 b k)) (fun j k => x1 (ix3 b j k)) (fun k h => x6 (ix2 k h)) (fun k h => x7 (ix2 k h))
          (fun h => x9 (ix1 h)) (x10 (ix1 b)) j h := by
  unfold val_main_v53
  rw [concatenate_pair_apply_right (s₁ := S4096x1x512) (s₂ := S4096x16x512) (1 : Fin 3) _ _ _ (ix3 b (j.succ : Fin 17) h)
    rfl rfl (ix3 b j h)
    (fun d hd => by
      match d with
      | ⟨0, _⟩ => rfl
      | ⟨1, _⟩ => exact absurd rfl hd
      | ⟨2, _⟩ => rfl)
    (by rfl)]
  rw [v51_eq]

/-- The seventeen values of row `b`, column `h`: at position zero the candidate. -/
theorem v60_zero (b : Fin 4096) (h : Fin 512) :
    val_main_v60 (F := Ideal) x0 x1 x2 x4 x5 x8 (ix3 b (0 : Fin 17) h)
      = gCand (fun k => x0 (ix2 b k)) (fun k => x2 (ix2 b k)) (fun k c => x4 (ix2 k c)) (fun k c => x5 (ix2 k c))
          (fun c => x8 (ix1 c)) h := by
  unfold val_main_v60
  rw [concatenate_pair_apply_left (s₁ := S4096x1x512) (s₂ := S4096x16x512) (1 : Fin 3) _ _ _ (ix3 b (0 : Fin 17) h) rfl
    (ix3 b (0 : Fin 1) h) (fun d => by match d with | ⟨0, _⟩ => rfl | ⟨1, _⟩ => rfl | ⟨2, _⟩ => rfl)]
  rw [val_main_v59_apply]
  have e : idx_main_v59 (ix3 b (0 : Fin 1) h) = ix2 b h :=
    funext fun a => by match a with | ⟨0, _⟩ => rfl | ⟨1, _⟩ => rfl
  rw [e, v21_eq]

/-- At position `j + 1` skip row `j` itself. -/
theorem v60_succ (b : Fin 4096) (j : Fin 16) (h : Fin 512) :
    val_main_v60 (F := Ideal) x0 x1 x2 x4 x5 x8 (ix3 b (j.succ : Fin 17) h) = x1 (ix3 b j h) := by
  unfold val_main_v60
  rw [concatenate_pair_apply_right (s₁ := S4096x1x512) (s₂ := S4096x16x512) (1 : Fin 3) _ _ _ (ix3 b (j.succ : Fin 17) h)
    rfl rfl (ix3 b j h)
    (fun d hd => by
      match d with
      | ⟨0, _⟩ => rfl
      | ⟨1, _⟩ => exact absurd rfl hd
      | ⟨2, _⟩ => rfl)
    (by rfl)]

/-- The first of the seventeen weights. -/
theorem v54_zero (b : Fin 4096) (h : Fin 512) :
    val_main_v54 (F := Ideal) x0 x1 x2 x4 x5 x6 x7 x8 x9 x10 (ix3 b (0 : Fin 17) h)
      = w0 (fun k => x0 (ix2 b k)) (fun k => x2 (ix2 b k)) (fun k c => x4 (ix2 k c)) (fun k c => x5 (ix2 k c))
          (fun c => x8 (ix1 c)) h := by
  rw [val_main_v54_apply, v53_zero, Ideal.hostUnary_exp_def]
  rfl

/-- The sixteen others. -/
theorem v54_succ (b : Fin 4096) (j : Fin 16) (h : Fin 512) :
    val_main_v54 (F := Ideal) x0 x1 x2 x4 x5 x6 x7 x8 x9 x10 (ix3 b (j.succ : Fin 17) h)
      = wj (fun k => x0 (ix2 b k)) (fun j k => x1 (ix3 b j k)) (fun k h => x6 (ix2 k h)) (fun k h => x7 (ix2 k h))
          (fun h => x9 (ix1 h)) (x10 (ix1 b)) j h := by
  rw [val_main_v54_apply, v53_succ, Ideal.hostUnary_exp_def]
  rfl

/-- The total of the seventeen weights: the sum over the joined axis, its head split off. -/
theorem v55_eq (b : Fin 4096) (h : Fin 512) :
    val_main_v55 (F := Ideal) x0 x1 x2 x4 x5 x6 x7 x8 x9 x10 (ix2 b h)
      = w0 (fun k => x0 (ix2 b k)) (fun k => x2 (ix2 b k)) (fun k c => x4 (ix2 k c)) (fun k c => x5 (ix2 k c))
          (fun c => x8 (ix1 c)) h
        + ∑ j : Fin 16, wj (fun k => x0 (ix2 b k)) (fun j k => x1 (ix3 b j k)) (fun k h => x6 (ix2 k h))
            (fun k h => x7 (ix2 k h)) (fun h => x9 (ix1 h)) (x10 (ix1 b)) j h := by
  rw [val_main_v55_apply, val_main_cst_8_apply,
    show (FloatOps.ofBits (F := Ideal) .f32 0x00000000#32 : EReal) = 0 from Ideal.ofBits_zero_f32, zero_add,
    Fin.sum_univ_succ]
  have e : ∀ k : Fin 17, idx_main_v55 (ix2 b h) k = ix3 b k h := fun k =>
    funext fun a => by match a with | ⟨0, _⟩ => rfl | ⟨1, _⟩ => rfl | ⟨2, _⟩ => rfl
  simp only [e, v54_zero, v54_succ]

/-- Weight `k` normalised by the total. -/
theorem v58_eq (b : Fin 4096) (k : Fin 17) (h : Fin 512) :
    val_main_v58 (F := Ideal) x0 x1 x2 x4 x5 x6 x7 x8 x9 x10 (ix3 b k h)
      = Ideal.div (val_main_v54 (F := Ideal) x0 x1 x2 x4 x5 x6 x7 x8 x9 x10 (ix3 b k h))
          (val_main_v55 (F := Ideal) x0 x1 x2 x4 x5 x6 x7 x8 x9 x10 (ix2 b h)) := by
  rw [val_main_v58_apply, val_main_v57_apply, val_main_v56_apply, Ideal.hostDivf_def]
  have e : idx_main_v56 (idx_main_v57 (ix3 b k h)) = ix2 b h :=
    funext fun a => by match a with | ⟨0, _⟩ => rfl | ⟨1, _⟩ => rfl
  rw [e]

/-- The reference's average: every weight normalised first, then value times weight summed over the seventeen. -/
theorem v62_eq (b : Fin 4096) (h : Fin 512) :
    val_main_v62 (F := Ideal) x0 x1 x2 x4 x5 x6 x7 x8 x9 x10 (ix2 b h)
      = mergedNormalised (fun k => x0 (ix2 b k)) (fun j k => x1 (ix3 b j k)) (fun k => x2 (ix2 b k))
          (fun k c => x4 (ix2 k c)) (fun k c => x5 (ix2 k c)) (fun k h => x6 (ix2 k h)) (fun k h => x7 (ix2 k h))
          (fun c => x8 (ix1 c)) (fun h => x9 (ix1 h)) (x10 (ix1 b)) h := by
  rw [val_main_v62_apply, val_main_cst_9_apply,
    show (FloatOps.ofBits (F := Ideal) .f32 0x00000000#32 : EReal) = 0 from Ideal.ofBits_zero_f32, zero_add,
    Fin.sum_univ_succ]
  have e : ∀ k : Fin 17, idx_main_v62 (ix2 b h) k = ix3 b k h := fun k =>
    funext fun a => by match a with | ⟨0, _⟩ => rfl | ⟨1, _⟩ => rfl | ⟨2, _⟩ => rfl
  simp only [e, val_main_v61_apply, Ideal.mulf_def, v58_eq, v55_eq, v54_zero, v54_succ, v60_zero, v60_succ]
  rfl

/-- The indicator of a nonzero count. The program converts the one-bit compare unsigned; the row function widens it
    to 32 bits and converts signed: the same number. -/
theorem v66_eq (b : Fin 4096) :
    val_main_v66 (F := Ideal) x10 (ix2 b (0 : Fin 1)) = hasSkips (x10 (ix1 b)) := by
  rw [val_main_v66_apply, val_main_v65_apply, val_main_v64_apply, val_main_v63_apply, val_main_c_apply]
  have e : idx_main_v66 (ix2 b (0 : Fin 1)) = ix1 b :=
    funext fun a => by match a with | ⟨0, _⟩ => rfl
  rw [e]
  unfold hasSkips
  rw [sitofp_setWidth_bit]

/-- The indicator broadcast along the columns. -/
theorem v67_eq (b : Fin 4096) (h : Fin 512) :
    val_main_v67 (F := Ideal) x10 (ix2 b h) = hasSkips (x10 (ix1 b)) := by
  rw [val_main_v67_apply]
  have e : idx_main_v67 (ix2 b h) = ix2 b (0 : Fin 1) :=
    funext fun a => by match a with | ⟨0, _⟩ => rfl | ⟨1, _⟩ => rfl
  rw [e, v66_eq]

/-- One less the indicator, the one the same word as the row function's. -/
theorem v71_eq (b : Fin 4096) (h : Fin 512) :
    val_main_v71 (F := Ideal) x10 (ix2 b h) = one - hasSkips (x10 (ix1 b)) := by
  rw [val_main_v71_apply]
  have e : idx_main_v71 (ix2 b h) = ix2 b (0 : Fin 1) :=
    funext fun a => by match a with | ⟨0, _⟩ => rfl | ⟨1, _⟩ => rfl
  rw [e, val_main_v70_apply, val_main_v69_apply, val_main_cst_10_apply, v66_eq]
  rfl

/-- The new cell entry: with real skip rows the reference's normalise-then-sum average is the sum-then-divide one. -/
theorem v73_eq (hs : ∀ i, ∃ r : ℝ, x1 i = (r : EReal)) (b : Fin 4096) (h : Fin 512) :
    val_main_v73 (F := Ideal) x0 x1 x2 x3 x4 x5 x6 x7 x8 x9 x10 (ix2 b h)
      = c1 (fun k => x0 (ix2 b k)) (fun j k => x1 (ix3 b j k)) (fun k => x2 (ix2 b k)) (fun k => x3 (ix2 b k))
          (fun k c => x4 (ix2 k c)) (fun k c => x5 (ix2 k c)) (fun k h => x6 (ix2 k h)) (fun k h => x7 (ix2 k h))
          (fun c => x8 (ix1 c)) (fun h => x9 (ix1 h)) (x10 (ix1 b)) h := by
  rw [val_main_v73_apply, val_main_v68_apply, val_main_v72_apply, v62_eq, v67_eq, v26_eq, v71_eq,
    merged_eq _ _ _ _ _ _ _ _ _ _ (fun j k => hs (ix3 b j k))]
  rfl

/-- The new hidden entry. -/
theorem v75_eq (hs : ∀ i, ∃ r : ℝ, x1 i = (r : EReal)) (b : Fin 4096) (h : Fin 512) :
    val_main_v75 (F := Ideal) x0 x1 x2 x3 x4 x5 x6 x7 x8 x9 x10 (ix2 b h)
      = h1 (fun k => x0 (ix2 b k)) (fun j k => x1 (ix3 b j k)) (fun k => x2 (ix2 b k)) (fun k => x3 (ix2 b k))
          (fun k c => x4 (ix2 k c)) (fun k c => x5 (ix2 k c)) (fun k h => x6 (ix2 k h)) (fun k h => x7 (ix2 k h))
          (fun c => x8 (ix1 c)) (fun h => x9 (ix1 h)) (x10 (ix1 b)) h := by
  rw [val_main_v75_apply, val_main_v74_apply, v20_eq, v73_eq _ _ _ _ _ _ _ _ _ _ _ hs, Ideal.hostUnary_tanh_def]
  rfl

end Entries

/-- The reference's new cell state is the cell's, all rows. -/
theorem ref_c1 (x0 : (⟨S4096x512, .f32⟩ : BufTy).Contents (Elt Ideal)) (x1 : (⟨S4096x16x512, .f32⟩ : BufTy).Contents (Elt Ideal))
    (x2 x3 : (⟨S4096x512, .f32⟩ : BufTy).Contents (Elt Ideal)) (x4 x5 : (⟨S512x1536, .f32⟩ : BufTy).Contents (Elt Ideal))
    (x6 x7 : (⟨S512x512, .f32⟩ : BufTy).Contents (Elt Ideal)) (x8 : (⟨S1536, .f32⟩ : BufTy).Contents (Elt Ideal))
    (x9 : (⟨S512, .f32⟩ : BufTy).Contents (Elt Ideal)) (x10 : (⟨S4096, .i32⟩ : BufTy).Contents (Elt Ideal))
    (hs : ∀ i, ∃ r : ℝ, x1 i = (r : EReal)) :
    val_main_v73 (F := Ideal) x0 x1 x2 x3 x4 x5 x6 x7 x8 x9 x10 = Cert.Lstm.C1 x0 x1 x2 x3 x4 x5 x6 x7 x8 x9 x10 := by
  funext i
  obtain ⟨b, h, rfl⟩ : ∃ (b : Fin 4096) (h : Fin 512), i = ix2 b h := ⟨i 0, i 1, eq_ix2 i⟩
  rw [v73_eq _ _ _ _ _ _ _ _ _ _ _ hs]
  rfl

/-- The reference's new hidden state is the cell's, all rows. -/
theorem ref_h1 (x0 : (⟨S4096x512, .f32⟩ : BufTy).Contents (Elt Ideal)) (x1 : (⟨S4096x16x512, .f32⟩ : BufTy).Contents (Elt Ideal))
    (x2 x3 : (⟨S4096x512, .f32⟩ : BufTy).Contents (Elt Ideal)) (x4 x5 : (⟨S512x1536, .f32⟩ : BufTy).Contents (Elt Ideal))
    (x6 x7 : (⟨S512x512, .f32⟩ : BufTy).Contents (Elt Ideal)) (x8 : (⟨S1536, .f32⟩ : BufTy).Contents (Elt Ideal))
    (x9 : (⟨S512, .f32⟩ : BufTy).Contents (Elt Ideal)) (x10 : (⟨S4096, .i32⟩ : BufTy).Contents (Elt Ideal))
    (hs : ∀ i, ∃ r : ℝ, x1 i = (r : EReal)) :
    val_main_v75 (F := Ideal) x0 x1 x2 x3 x4 x5 x6 x7 x8 x9 x10 = Cert.Lstm.H1 x0 x1 x2 x3 x4 x5 x6 x7 x8 x9 x10 := by
  funext i
  obtain ⟨b, h, rfl⟩ : ∃ (b : Fin 4096) (h : Fin 512), i = ix2 b h := ⟨i 0, i 1, eq_ix2 i⟩
  rw [v75_eq _ _ _ _ _ _ _ _ _ _ _ hs]
  rfl

end Cert.Lstm.Ref

end
-- ==== Proof.SkipReal.lean ====
/-
  The skip rows are real.

  The precondition is the conjunction of ten tests, one per float input, each "every entry's absolute value is below
  +∞". The whole conjunction being true makes its second conjunct true, the one about the skip rows; a conjunction over
  all entries that is true is true at every entry; and an extended real `x` with `max x (−x) < ⊤` is neither `⊤` nor
  `⊥`, hence a real.
-/
import proofs.«420897_j40261023432819_3_alg».proof.Pre_finite_inputs
import Idealize.ShloMosaic.Lib.ReduceAll
import Idealize.ShloMosaic.Lib.ValueIdx
import Idealize.ShloMosaic.PureOps.Ideal.Laws

noncomputable section

namespace Cert.Lstm.Finite

open Cert.Pre_finite_inputs Idealize.ShloMosaic

/-- The scalar shape has one index. -/
instance : Subsingleton S_.Idx := ⟨fun a b => funext fun d => d.elim0⟩

/-- The word `0x7F800000` is +∞. -/
theorem ofBits_inf : Ideal.ofBits .f32 0x7F800000#32 = (⊤ : EReal) := by
  simp [Ideal.ofBits, Ideal.ieee]

/-- An extended real whose absolute value is below +∞ is a real. -/
theorem real_of_abs_lt_top (x : EReal) (hx : Ideal.cmp .olt (max x (-x)) (Ideal.ofBits .f32 0x7F800000#32) = 1#1) :
    ∃ r : ℝ, x = (r : EReal) := by
  rw [ofBits_inf] at hx
  induction x using EReal.rec with
  | bot => simp [Ideal.cmp] at hx
  | coe r => exact ⟨r, rfl⟩
  | top => simp [Ideal.cmp] at hx

/-- Under the precondition every entry of the skip rows is a real. The conjunction nests to the left, the skip rows'
    test second: eight left halves down to the first pair, then its right half. -/
theorem skip_real [Cert.Pre_finite_inputs.Facts] (a0 : FVec Ideal S4096x512 .f32) (a1 : FVec Ideal S4096x16x512 .f32) (a2 a3 : FVec Ideal S4096x512 .f32) (a4 a5 : FVec Ideal S512x1536 .f32) (a6 a7 : FVec Ideal S512x512 .f32) (a8 : FVec Ideal S1536 .f32) (a9 : FVec Ideal S512 .f32) (a10 : IVec S4096 32)
    (h : Cert.Pre_finite_inputs.fn (F := Ideal) a0 a1 a2 a3 a4 a5 a6 a7 a8 a9 a10 = fun _ => 1#1) :
    ∀ i, ∃ r : ℝ, a1 i = (r : EReal) := by
  intro i
  have h0 := congrFun h ValueIdx.ix0
  dsimp only [fn, fn_part1, fn_part2] at h0
  have h8 := (IntOp.andi_eq_one.1 (IntOp.andi_eq_one.1 (IntOp.andi_eq_one.1 (IntOp.andi_eq_one.1 (IntOp.andi_eq_one.1
    (IntOp.andi_eq_one.1 (IntOp.andi_eq_one.1 (IntOp.andi_eq_one.1 h0).1).1).1).1).1).1).1).1
  have h7 := (IntOp.andi_eq_one.1 h8).2
  exact real_of_abs_lt_top (a1 i) (Host.reduce_andi_all _ _ _ _ _ h7 i)

end Cert.Lstm.Finite

end
-- ==== Proof.lean ====
/-
  The new cell and hidden state of a long short-term memory cell that also averages in up to sixteen skip rows, computed
  by a tiled kernel over 32 blocks of 128 batch rows and by a plain array program: the two agree at exact arithmetic.

  Both programs compute, for every batch row, the three gates from the input and previous hidden rows, the plain cell
  update, a masked attention score for each of the row's sixteen skip rows, and a weighted average of the candidate and
  the skip rows with the exponentials of the input gate and of the scores as weights; the row's count of valid skip rows
  chooses between the average and the plain update, and the new hidden row is the output gate times the hyperbolic
  tangent of the new cell row (Proof/Spec.lean states this row by row). They differ in three ways, none of which
  changes a value at exact arithmetic: the kernel narrows three operands to a 16-bit format (the identity here) and works
  block by block (Proof/KernLayout.lean, KernPayload.lean, KernBlocks.lean: its two result arrays, whole, are the row
  function of each row's data); it applies the logistic function as one operation where the array program spells out
  1 / (1 + e⁻ˣ) (the same function by definition); and it sums the seventeen weighted values first and divides by the total
  weight once, where the array program divides every weight by the total and then sums (Proof/RefIsSpec.lean reads the
  array program entry by entry). The last needs finiteness: a division moves across a sum only among reals. Every weight is
  the exponential of a logistic value less a real, a positive real whatever the inputs; the candidate is a hyperbolic
  tangent, a real whatever the inputs; so only the skip rows themselves must be real, which is what the precondition says of
  them (Proof/SkipReal.lean), and the law is Proof/LibSoftmaxMerge.lean's.

  The three frames are the programs' runs with the results forgotten; the kernel's idealization rewrote nothing.
-/
import proofs.«420897_j40261023432819_3_alg».proof.Defs
import proofs.«420897_j40261023432819_3_alg».proof.Proof.Gen.Kernel
import proofs.«420897_j40261023432819_3_alg».proof.Proof.Gen.Kernel.Skeleton
import proofs.«420897_j40261023432819_3_alg».proof.Proof.Gen.Kernel.Launch
import proofs.«420897_j40261023432819_3_alg».proof.Proof.Gen.Kernel.Points
import proofs.«420897_j40261023432819_3_alg».proof.Proof.Gen.Kernel.Frame
import proofs.«420897_j40261023432819_3_alg».proof.Proof.Gen.KernelIdeal
import proofs.«420897_j40261023432819_3_alg».proof.Proof.Gen.KernelIdeal.Skeleton
import proofs.«420897_j40261023432819_3_alg».proof.Proof.Gen.KernelIdeal.Launch
import proofs.«420897_j40261023432819_3_alg».proof.Proof.Gen.KernelIdeal.Points
import proofs.«420897_j40261023432819_3_alg».proof.Proof.Gen.KernelIdeal.Frame
import proofs.«420897_j40261023432819_3_alg».proof.Proof.Gen.ReferenceIdeal
import proofs.«420897_j40261023432819_3_alg».proof.Proof.Gen.Pre_finite_inputs
import proofs.«420897_j40261023432819_3_alg».proof.Proof.Gen.KernelIdeal.Value
import proofs.«420897_j40261023432819_3_alg».proof.Proof.Gen.ReferenceIdeal.Run
import proofs.«420897_j40261023432819_3_alg».proof.Proof.Gen.ReferenceIdeal.Read
import proofs.«420897_j40261023432819_3_alg».proof.Proof.KernBlocks
import proofs.«420897_j40261023432819_3_alg».proof.Proof.RefIsSpec
import proofs.«420897_j40261023432819_3_alg».proof.Proof.SkipReal
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- And the array program: its run with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the eleven arguments both programs end with the hidden result at `H1` and the cell
    result at `C1` of the arguments: the kernel by its blocks, the array program entry by entry and, the skip rows being
    real under the precondition, by the law that moves the division out of the sum. -/
theorem algebraic : Cert.algebraic_KernelIdeal_ReferenceIdeal := by
  intro m ρ m' ρ' hpre hagree
  have hs : ∀ c : Dev Cert.KernelIdeal.nD, ∀ i, ∃ r : ℝ,
      m ((c.tc : Thread Cert.KernelIdeal.nD Cert.KernelIdeal.τ).loc Cert.KernelIdeal.main_arg1) i = (r : EReal) :=
    fun c => Cert.Lstm.Finite.skip_real _ _ _ _ _ _ _ _ _ _ _ (hpre c)
  refine ⟨_, _, Cert.Lstm.Kern.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10⟩ := hagree c
  refine ⟨?_, ?_, (h c).2.2⟩
  · rw [(h c).1, Cert.ReferenceIdeal.Read.val_main_v75_eq, g0, g1, g2, g3, g4, g5, g6, g7, g8, g9, g10]
    exact Cert.Lstm.Ref.ref_h1 _ _ _ _ _ _ _ _ _ _ _ (hs c)
  · rw [(h c).2.1, Cert.ReferenceIdeal.Read.val_main_v73_eq, g0, g1, g2, g3, g4, g5, g6, g7, g8, g9, g10]
    exact Cert.Lstm.Ref.ref_c1 _ _ _ _ _ _ _ _ _ _ _ (hs c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
